-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩
abbrev S10240x256 : Shape := ⟨2, ![10240, 256]⟩
abbrev S1x256 : Shape := ⟨2, ![1, 256]⟩
abbrev S2048x256 : Shape := ⟨2, ![2048, 256]⟩
abbrev S400x2048 : Shape := ⟨2, ![400, 2048]⟩
abbrev S400x256 : Shape := ⟨2, ![400, 256]⟩

abbrev nBuf : Space → Nat
  | .hbm => 10
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S10240x256, .f32⟩
  | .hbm, ⟨7, _⟩ => ⟨S10240x256, .bf16⟩
  | .hbm, ⟨8, _⟩ => ⟨S1x256, .f32⟩
  | .hbm, ⟨9, _⟩ => ⟨S10000x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .bf16⟩
  | .local _ .vmem, ⟨4, _⟩ => ⟨S2048x256, .bf16⟩
  | .local _ .vmem, ⟨5, _⟩ => ⟨S400x2048, .f32⟩
  | .local _ .vmem, ⟨6, _⟩ => ⟨S400x2048, .f32⟩
  | .local _ .vmem, ⟨7, _⟩ => ⟨S10240x256, .bf16⟩
  | .local _ .vmem, ⟨8, _⟩ => ⟨S1x256, .f32⟩
  | .local _ .vmem, ⟨9, _⟩ => ⟨S400x256, .f32⟩
  | .local _ .vmem, ⟨10, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![25, 5], ![false, false]⟩

def k1_off1 (i : grid1.Coords) : Fin 2 → Nat :=
  let arg1 : BitVec 32 := BitVec.ofNat 32 (i 1).val
  let c2048_i32_2 : BitVec 32 := 2048#32
  let v13 : BitVec 32 := Scalar.muli arg1 c2048_i32_2
  let v14 : Index := Scalar.indexCast v13
  let c0_3 : Index := 0#32
  ![v14.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S400x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S10000x256_S10240x256_02400_000 : S10000x256.Pads (![0, 0] : Fin 2 → Nat) ![240, 0] ![0, 0] S10240x256
  h_S_ : 0 < S_.numel
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S2048x256_S2048x256_0_0 : (Rect.unit (s := S2048x256) ![0, 0] S2048x256.size inb_S2048x256_S2048x256_0_0).PackedRows (EltTy.packing .bf16)
  inb_S400x256_S400x256_0_0 : ∀ a, (![0, 0] : Fin 2 → Nat) a + S400x256.size a ≤ S400x256.size a
  h_S400x256 : 0 < S400x256.numel
  inb_S400x2048_S400x2048_0_0 : ∀ a, (![0, 0] : Fin 2 → Nat) a + S400x2048.size a ≤ S400x2048.size a
  h_S400x2048 : 0 < S400x2048.numel
  iota_S400x2048_d1_w32 : S400x2048.Iotas .tc 32 [1]
  shapeCasts_S400x256_S400x256 : S400x256.ShapeCasts S400x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  dot_S2048x256_S256x256_S2048x256_1_0_0_1_n_n_wf : DotDims.WF S2048x256 S256x256 S2048x256 [1] [0] [0] [1] [] []
  dot_S400x2048_S2048x256_S400x256_1_0_0_1_n_n_wf : DotDims.WF S400x2048 S2048x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S10240x256.size a
  hwx0_0 : ∀ i : grid0.Coords, EltTy.bits .f32 = 32 ∨ (Rect.block (s := S10240x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S10240x256.size a
  hwx0_2 : ∀ i : grid0.Coords, EltTy.bits .bf16 = 32 ∨ (Rect.block (s := S10240x256) S2048x256.size (cc0_transform_2 i) (hinb0_2 i)).WholeWords (EltTy.packing .bf16)
  hrank1 : 0 < grid1.rank
  k1_off1_inb : ∀ i : grid1.Coords, ∀ a, (k1_off1 i) a + S2048x256.size a ≤ S10240x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S400x2048.size a < S10000x10000.size a
  hwx1_0 : ∀ i : grid1.Coords, EltTy.bits .f32 = 32 ∨ (Rect.unit (s := S10000x10000) (fun a => cc1_transform_0 i a * S400x2048.size a) (fun a => (Pipeline.Clip.of (cc1_transform_0 i a) (S400x2048.size a) (S10000x10000.size a)).extent (S400x2048.size a)) fun a => Pipeline.Clip.inb (Pipeline.Clip.ok_of (hstart1_0 i a))).WholeWords (EltTy.packing .f32)
  hwxs1_0 : ∀ i : grid1.Coords, EltTy.bits .f32 = 32 ∨ (Rect.unit (s := S400x2048) (fun _ => 0) (fun a => (Pipeline.Clip.of (cc1_transform_0 i a) (S400x2048.size a) (S10000x10000.size a)).extent (S400x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S400x2048_S2048x256_S400x256_1_0_0_1_n_n : DotDims S400x2048 S2048x256 S400x256 where
  lhsContracting := [1]
  rhsContracting := [0]
  lhsNonContracting := [0]
  rhsNonContracting := [1]
  lhsBatch := []
  rhsBatch := []
  wf := dot_S400x2048_S2048x256_S400x256_1_0_0_1_n_n_wf

abbrev win0_0 : Pipeline.Window sig grid0 :=
  Pipeline.Window.ofSpec (Memref.whole main_call0_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_arg1) S400x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_call0_v1) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Kernel.Data.lean ====
/-
  The proof data of the two kernel regions, at any float instance `F` and at any contents `V` the region is entered
  from.

  REGION 0 (the support).  At point `t` of its five points the body reads its two input blocks whole — rows
  `2048 t …` of the padded `x`, and all of `W` — and stores into the result's staging buffer ONE value: their product
  rounded to the narrow format (`sup0`).  Nothing is carried from point to point.

  REGION 1 (the aggregation).  Its 125 points are 25 row blocks of 400 rows times 5 chunks `k` of 2048 columns of
  the adjacency; the result's staging buffer is kept across the five chunks of one row block and written back after the
  fifth.  What the buffer holds after the body at a point (`outAt1`) is therefore a recursion on the point:
    * chunk 0 (`accA`): the buffer is reset to zero and the chunk's product added to it;
    * chunks 1, 2, 3 (`accB`): the chunk's product added to what the point before left;
    * chunk 4 (`accC`): the same, then the bias row added and the result clamped at zero.
  The adjacency's last chunk runs 240 columns past the matrix: the fetch fills only the block's part inside the
  matrix and the rest of the staging buffer holds words nothing names.  The data name the buffer with zeros there
  (`ablk`); the body masks exactly those columns before the product, so what it computes does not depend on them.
-/
import proofs.«163589_g31456340476406_cont_sun_m_339_6_alg».proof.Proof.Gen.Kernel.Launch
import proofs.«163589_g31456340476406_cont_sun_m_339_6_alg».proof.Proof.Gen.Kernel.Skeleton
import proofs.«163589_g31456340476406_cont_sun_m_339_6_alg».proof.Proof.Gen.Kernel.Points
import Idealize.ShloMosaic.Lib.Pipeline.FrameBody
import Idealize.ShloMosaic.Lib.Pipeline.Frame
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: the support -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the result's staging buffer, from its two input blocks. -/
def sup0 (x0 : Vec F S2048x256 .f32) (x1 : Vec F S256x256 .f32) : Vec F S2048x256 .bf16 := k0_pay1 x0 x1

/-- The proof data of region 0: the arrays as found; after the body each input's buffer at its block and the
    result's at `sup0` of them; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sup0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sup0 (iblk0 V c 0 t) (iblk0 V c 1 t) := by
  dsimp only [dat0]

/-- Each input's staging buffer holds its block when the body runs, fetched at that point or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- The result's staging buffer holds anything: it is written back after every point. -/
theorem before0_2 (c : Dev nD) (t : Fin cfg0.N) (d) : (dat0 V c).before 2 t d = d := by
  refine (dat0 V c).before_out_reset 2 rfl t ?_ d
  by_cases h0 : t.val = 0
  · exact .inl h0
  · exact .inr ⟨h0, flush0_2 _⟩

/-! # Region 1: the aggregation -/

/-- Window `w`'s block at point `t`, read off its array as the region finds it (for the adjacency: the block's part
    inside the matrix). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer as the data name it: the block's part inside the matrix, zeros past it. -/
def ablk (c : Dev nD) (t : Fin cfg1.N) : Vec F S400x2048 .f32 :=
  win1_0.fill (grid1.coords t) (fun _ => Scalar.ofBits .f32 0#32) (iblk1 V c 0 t)

/-- The rows of the support the body loads at grid coordinates `i`: rows `2048 · i 1 …`. -/
abbrev supRect (i : grid1.Coords) : Rect S10240x256 := Rect.unit (s := S10240x256) (k1_off1 i) S2048x256.size (k1_off1_inb i)

/-- Chunk 0: the buffer reset to zero, the chunk's product added. -/
def accA (i : grid1.Coords) (a : Vec F S400x2048 .f32) (s : Vec F S10240x256 .bf16) : Vec F S400x256 .f32 :=
  k1_pay2 i a (View.ld s (supRect i)) (k1_pay1 (F := F))
/-- Chunks 1, 2, 3: the chunk's product added to what the point before left. -/
def accB (i : grid1.Coords) (a : Vec F S400x2048 .f32) (s : Vec F S10240x256 .bf16) (prev : Vec F S400x256 .f32) : Vec F S400x256 .f32 :=
  k1_pay2 i a (View.ld s (supRect i)) prev
/-- Chunk 4: the same, then the bias added and the result clamped at zero. -/
def accC (i : grid1.Coords) (a : Vec F S400x2048 .f32) (s : Vec F S10240x256 .bf16) (b : Vec F S1x256 .f32) (prev : Vec F S400x256 .f32) : Vec F S400x256 .f32 :=
  k1_pay3 (k1_pay2 i a (View.ld s (supRect i)) prev) b

/-- What the result's staging buffer holds after the body at position `n`, by recursion on the position. -/
def outAt1 (c : Dev nD) : (n : ℕ) → n < cfg1.N → Vec F S400x256 .f32
  | 0, hn => accA (grid1.coords ⟨0, hn⟩) (ablk V c ⟨0, hn⟩) (iblk1 V c 1 ⟨0, hn⟩)
  | n + 1, hn =>
    if (n + 1) % 5 = 0 then
      accA (grid1.coords ⟨n + 1, hn⟩) (ablk V c ⟨n + 1, hn⟩) (iblk1 V c 1 ⟨n + 1, hn⟩)
    else if (n + 1) % 5 = 4 then
      accC (grid1.coords ⟨n + 1, hn⟩) (ablk V c ⟨n + 1, hn⟩) (iblk1 V c 1 ⟨n + 1, hn⟩) (iblk1 V c 2 ⟨n + 1, hn⟩) (outAt1 c n (Nat.lt_of_succ_lt hn))
    else
      accB (grid1.coords ⟨n + 1, hn⟩) (ablk V c ⟨n + 1, hn⟩) (iblk1 V c 1 ⟨n + 1, hn⟩) (outAt1 c n (Nat.lt_of_succ_lt hn))

theorem outAt1_A (c : Dev nD) (t : Fin cfg1.N) (h0 : t.val % 5 = 0) :
    outAt1 V c t.val t.isLt = accA (grid1.coords t) (ablk V c t) (iblk1 V c 1 t) := by
  obtain ⟨n, hn⟩ := t
  cases n with
  | zero => rfl
  | succ n => exact (if_pos h0).trans rfl
theorem outAt1_B (c : Dev nD) (t : Fin cfg1.N) (h0 : ¬t.val % 5 = 0) (h4 : ¬t.val % 5 = 4) :
    outAt1 V c t.val t.isLt = accB (grid1.coords t) (ablk V c t) (iblk1 V c 1 t)
      (outAt1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h4).trans rfl)
theorem outAt1_C (c : Dev nD) (t : Fin cfg1.N) (h4 : t.val % 5 = 4) :
    outAt1 V c t.val t.isLt = accC (grid1.coords t) (ablk V c t) (iblk1 V c 1 t) (iblk1 V c 2 t)
      (outAt1 V c (t.val - 1) (Nat.lt_of_le_of_lt (Nat.sub_le _ _) t.isLt)) := by
  obtain ⟨n, hn⟩ := t
  cases n with
  | zero => exact absurd (show (0 : ℕ) % 5 = 4 from h4) (by decide)
  | succ n =>
    have h4' : (n + 1) % 5 = 4 := h4
    exact (if_neg (by omega)).trans ((if_pos h4').trans rfl)

/-- The proof data of region 1. -/
def dat1 (c : Dev nD) : Dat τ (Elt F) Unit ℕ (UR sig nD τ) ℕ cfg1 c where
  A w := V c (Pipeline.arrRef spec1 w)
  after w t := match w with
    | ⟨0, _⟩ => ablk V c t
    | ⟨1, _⟩ => iblk1 V c 1 t
    | ⟨2, _⟩ => iblk1 V c 2 t
    | ⟨3, _⟩ => outAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = ablk V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-- The adjacency's staging buffer when the body runs: just fetched — the block's part inside the matrix, `d` past it. -/
theorem before1_0 (c : Dev nD) (t : Fin cfg1.N) (d) :
    (dat1 V c).before 0 t d = win1_0.fill (grid1.coords t) d (iblk1 V c 0 t) := by
  rw [(dat1 V c).before_fetched 0 t (fetch1_0 t) d]
  unfold Dat.fetched Dat.blockOf iblk1; rw [A_eq1]; try rfl
/-- The support's and the bias's staging buffers hold their (whole) arrays at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- The result's staging buffer at a row block's first chunk holds anything (the first point, or just written back); -/
theorem before1_3_A (c : Dev nD) (t : Fin cfg1.N) (h0 : t.val % 5 = 0) (d) : (dat1 V c).before 3 t d = d := by
  refine (dat1 V c).before_out_reset 3 rfl t ?_ d
  by_cases hz : t.val = 0
  · exact .inl hz
  · exact .inr ⟨hz, (flush1_3 _).mpr (by dsimp only; omega)⟩
/-- at a later chunk, what the body left at the point before. -/
theorem before1_3_B (c : Dev nD) (t : Fin cfg1.N) (h0 : ¬t.val % 5 = 0) (d) :
    (dat1 V c).before 3 t d = outAt1 V c (t.val - 1) (Nat.lt_of_le_of_lt (Nat.sub_le _ _) t.isLt) := by
  rw [Dat.before_out_kept _ 3 rfl t (by omega) (Bool.eq_false_iff.mpr fun h => by have := (flush1_3 _).mp h; dsimp only at this; omega)
    (fun _ => rfl) (fun _ _ => rfl)]
  dsimp only [dat1]

end Cert.Kernel.Hand

end
-- ==== Proof.Kernel.Body0.lean ====
/-
  Region 0's body at every point: two whole loads (the block of the padded `x`, all of `W`), their product rounded
  to the narrow format, a dead load of the result's staging buffer, one whole store.  The result's buffer ends at
  `sup0` of the two blocks; the inputs' buffers are left as found.
-/
import proofs.«163589_g31456340476406_cont_sun_m_339_6_alg».proof.Proof.Kernel.Data
import Idealize.ShloMosaic.Lib.Pipeline.Value
import Idealize.ShloMosaic.Lib.Tactic
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of a whole-buffer access, as the program writes them, are zero on both axes. -/
private theorem zero2 : (![0, 0] : Fin 2 → Nat) = fun _ => 0 := funext fun a => by fin_cases a <;> rfl

/-- One piece through the whole-shape rectangle at zero offsets covers every index of the shape. -/
private theorem cover_unit_zero {Val : EltTy → Type} {S : Shape} {e : EltTy} {off : Fin S.rank → Nat} (h : off = fun _ => 0)
    (inb : ∀ a, off a + S.size a ≤ S.size a) (w : S.Idx → Val e) (y : S.Idx) :
    ∃ pc ∈ ([⟨Rect.unit off S.size inb, w⟩] : List (View.Piece Val S e)), y ∈ pc.1.set := by
  subst h
  exact ⟨_, List.mem_singleton_self _, by show y ∈ (Rect.whole S).set; rw [Rect.set_whole]; exact Finset.mem_univ y⟩

/-! ## The body's triple -/

set_option maxHeartbeats 1000000 in
/-- The body on whole staging memrefs: with the inputs' at contents `x0`, `x1` and the result's at anything, it runs to
    the continuation holding the inputs' as they were and the result's at `sup0 x0 x1`.  The two loads read the
    contents (a whole load at zero offsets); the load of the result's buffer is dead; the one store covers the buffer,
    so what is read back is its payload, whatever the buffer held. -/
theorem sound_kernel0 (c : Dev nD) (E : Set ℕ) (i : grid0.Coords)
    (arg1 : Memref sig .tc .vmem S2048x256 .f32) (harg1 : arg1.IsWhole)
    (arg2 : Memref sig .tc .vmem S256x256 .f32) (harg2 : arg2.IsWhole)
    (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (sup0 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold sup0
  rw [View.read_writes_eq_canon _ _ _ (cover_unit_zero zero2 _ _), View.canon_unit_zero zero2,
    View.readAt_eq_ld, View.readAt_eq_ld, View.ld_unit_zero zero2, View.ld_unit_zero zero2]

/-! ## The body obligation, at a generic point -/

/-- What the body is called with at point `t`: the invariant, what is owed, and the three windows' current staging
    buffers, each at what the data say it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks and the result's holds anything, so the body's
    triple applies; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.Kernel.Mask.lean ====
/-
  The column mask of region 1's body.  At grid coordinates `i` (chunk `k = i 1`) the body compares, lane by lane,
  the adjacency column `2048 k + jj` of lane `(p, jj)` with 10000 and replaces the lane by zero where the column is
  not below it.  The adjacency's block is cut at the matrix's last column, never at a row (400 divides 10000): the
  lanes a fetch fills are exactly the lanes the mask keeps.  So the chunk's product does not depend on what the
  staging buffer holds past the matrix.
-/
import proofs.«163589_g31456340476406_cont_sun_m_339_6_alg».proof.Proof.Kernel.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The mask the body computes: lane `(p, jj)` is kept iff column `2048 · i 1 + jj` is below 10000. -/
def colMask (i : grid1.Coords) : IVec S400x2048 1 :=
  cmpi .slt (addi (broadcast S400x2048 (Scalar.muli (BitVec.ofNat 32 (i 1).val) 2048#32)) (iota .tc S400x2048 32 [1] iota_S400x2048_d1_w32))
    (broadcast S400x2048 (10000#32 : BitVec 32))

/-- The chunk's payload with the mask named. -/
theorem k1_pay2_eq (i : grid1.Coords) (a : Vec F S400x2048 .f32) (s : Vec F S2048x256 .bf16) (p : Vec F S400x256 .f32) :
    k1_pay2 i a s p = addf (shapeCast S400x256 p shapeCasts_S400x256_S400x256)
      (matmul dot_S400x2048_S2048x256_S400x256_1_0_0_1_n_n none
        (select (colMask i) (truncf .bf16 a bitsLt_bf16_f32) (broadcast S400x2048 (Scalar.ofBits .bf16 0x0000#16)))
        (shapeCast S2048x256 s shapeCasts_S2048x256_S2048x256) (constant S400x256 .f32 0x00000000#32)) := rfl

/-- No 32-bit wrap-around: for `k < 5` and `jj < 2048` the word `k · 2048 + jj` is the number, read signed. -/
private theorem word_slt (k jj : ℕ) (hk : k < 5) (hj : jj < 2048) :
    (IntOp.addi (Scalar.muli (BitVec.ofNat 32 k) 2048#32) (BitVec.ofNat 32 jj)).toInt < (10000#32 : BitVec 32).toInt
      ↔ 2048 * k + jj < 10000 := by
  have e : IntOp.addi (Scalar.muli (BitVec.ofNat 32 k) 2048#32) (BitVec.ofNat 32 jj) = BitVec.ofNat 32 (k * 2048 + jj) := by
    show BitVec.ofNat 32 k * BitVec.ofNat 32 2048 + BitVec.ofNat 32 jj = _
    rw [BitVec.ofNat_add, BitVec.ofNat_mul]
  rw [e, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  omega

/-- The lane sequence along axis 1 reads, at a lane, its column coordinate as a word. -/
private theorem iota_col (j : S400x2048.Idx) :
    iota .tc S400x2048 32 [1] iota_S400x2048_d1_w32 j = BitVec.ofNat 32 (j 1).val := by
  show BitVec.ofNat 32 (0 * S400x2048.size 1 + (j 1).val) = _
  rw [Nat.zero_mul, Nat.zero_add]

/-- The mask decoded: no 32-bit wrap-around occurs, since `i 1 < 5` and `jj < 2048`. -/
theorem colMask_iff (i : grid1.Coords) (j : S400x2048.Idx) : colMask i j = 1#1 ↔ 2048 * (i 1).val + (j 1).val < 10000 := by
  have hk : (i 1).val < 5 := (i 1).isLt
  have hj : (j 1).val < 2048 := (j 1).isLt
  show IntOp.cmpi .slt (IntOp.addi (Scalar.muli (BitVec.ofNat 32 (i 1).val) 2048#32)
    (iota .tc S400x2048 32 [1] iota_S400x2048_d1_w32 j)) (10000#32 : BitVec 32) = 1#1 ↔ _
  rw [IntOp.cmpi_slt, iota_col]
  exact word_slt _ _ hk hj

/-- The adjacency's block is never cut at a row: `400 · (i 0 + 1) ≤ 10000` for `i 0 < 25`. -/
private theorem xsize_row (i : grid1.Coords) : win1_0.xsize i 0 = 400 := by
  have h0 : (i 0).val < 25 := (i 0).isLt
  show (Pipeline.Clip.of (BitVec.ofNat 32 (i 0).val).toNat 400 10000).extent 400 = 400
  rw [BitVec.toNat_ofNat, Nat.mod_eq_of_lt (by omega)]
  unfold Pipeline.Clip.of
  rw [if_pos (by omega)]

/-- Along the columns the block is cut at the matrix's last column. -/
private theorem xsize_col (i : grid1.Coords) : win1_0.xsize i 1 = min 2048 (10000 - 2048 * (i 1).val) := by
  have h1 : (i 1).val < 5 := (i 1).isLt
  show (Pipeline.Clip.of (BitVec.ofNat 32 (i 1).val).toNat 2048 10000).extent 2048 = _
  rw [BitVec.toNat_ofNat, Nat.mod_eq_of_lt (by omega)]
  unfold Pipeline.Clip.of
  split
  · show 2048 = _; omega
  · show 10000 - (i 1).val * 2048 = _; omega

/-- The lanes a fetch of the adjacency's block fills are the lanes whose column lies inside the matrix. -/
theorem moved_iff_col (i : grid1.Coords) (j : S400x2048.Idx) : win1_0.moved i j = true ↔ 2048 * (i 1).val + (j 1).val < 10000 := by
  have hp : (j 0).val < 400 := (j 0).isLt
  have hj : (j 1).val < 2048 := (j 1).isLt
  have h1 : (i 1).val < 5 := (i 1).isLt
  rw [Window.moved_iff]
  constructor
  · intro h
    have h' : (j 1).val < win1_0.xsize i 1 := h 1
    rw [xsize_col] at h'; omega
  · intro h a
    match a with
    | ⟨0, _⟩ => show (j 0).val < win1_0.xsize i 0; rw [xsize_row]; exact hp
    | ⟨1, _⟩ => show (j 1).val < win1_0.xsize i 1; rw [xsize_col]; omega

/-- A masked narrowing reads its operand only on the lanes the mask keeps. -/
private theorem select_truncf_congr (m : IVec S400x2048 1) (a a' : Vec F S400x2048 .f32) (z : FVec F S400x2048 .bf16)
    (h : ∀ j, m j = 1#1 → a j = a' j) :
    select m (truncf .bf16 a bitsLt_bf16_f32) z = select m (truncf .bf16 a' bitsLt_bf16_f32) z := by
  funext j
  unfold select truncf Scalar.select
  by_cases hm : m j = (1 : BitVec 1)
  · rw [if_pos hm, if_pos hm, h j hm]
  · rw [if_neg hm, if_neg hm]

/-- The chunk's payload does not depend on what the staging buffer holds past the matrix. -/
theorem k1_pay2_fill (i : grid1.Coords) (d d' : S400x2048.Idx → Elt F .f32) (g : (win1_0.xblock i).Idx → Elt F .f32)
    (s : Vec F S2048x256 .bf16) (p : Vec F S400x256 .f32) :
    k1_pay2 i (win1_0.fill i d g) s p = k1_pay2 i (win1_0.fill i d' g) s p := by
  rw [k1_pay2_eq, k1_pay2_eq]
  -- a kept lane has its column inside the matrix, so the fetch filled it: both buffers hold the fetched word there
  rw [select_truncf_congr (colMask i) (win1_0.fill i d g) (win1_0.fill i d' g) _ fun j hj => by
    have hm : win1_0.moved i j = true := (moved_iff_col i j).mpr ((colMask_iff i j).mp hj)
    unfold Window.fill
    rw [dif_pos hm, dif_pos hm]]

end Cert.Kernel.Hand

end
-- ==== Proof.Kernel.Body1.lean ====
/-
  Region 1's body at every point, by the chunk `k` the point is in (its position modulo 5): at chunk 0 the result's
  staging buffer is reset and the chunk's product added; at chunks 1, 2, 3 the product is added to what the buffer
  held; at chunk 4 the bias is then added and the result clamped at zero.  The adjacency's staging buffer may hold
  anything past the matrix's last column; the body masks exactly those columns before the product.

  Every access of the result's, the adjacency's and the bias's buffers is through the whole buffer (offsets zero, the
  buffer's own sizes): a load reads the contents, a store leaves its payload, and a load after a store reads that
  payload back.  The support is loaded through the rows `2048 k …` of its buffer, which is how the data state it.
  So per chunk the result's buffer ends at `accA`, `accB` or `accC` of what the four buffers held, with the
  adjacency's buffer as it arrived; replacing what that buffer holds past the matrix by zeros does not change the
  payload (the mask), which gives the data's `ablk`.
-/
import proofs.«163589_g31456340476406_cont_sun_m_339_6_alg».proof.Proof.Kernel.Data
import proofs.«163589_g31456340476406_cont_sun_m_339_6_alg».proof.Proof.Kernel.Mask
import Idealize.ShloMosaic.Lib.Tactic
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditions -/

/-- The first condition of the body, from the grid coordinates: the chunk `k = i 1` is 0. -/
abbrev cond1_0 (i : grid1.Coords) : Prop := (Scalar.cmpi .ne (Scalar.extui (Scalar.cmpi .eq (BitVec.ofNat 32 (i 1).val) 0#32)) 0#32) = 1#1
/-- The second: the chunk is 4. -/
abbrev cond1_4 (i : grid1.Coords) : Prop := (Scalar.cmpi .ne (Scalar.extui (Scalar.cmpi .eq (BitVec.ofNat 32 (i 1).val) 4#32)) 0#32) = 1#1

/-- Point `t = 5 ib + k` has chunk `k = t mod 5`: the first condition holds at the points ≡ 0, -/
theorem hcond1_0 : ∀ t : Fin cfg1.N, cond1_0 (grid1.coords t) ↔ t.val % 5 = 0 :=
  (by decide +kernel : ∀ t : Fin grid1.N, cond1_0 (grid1.coords t) ↔ t.val % 5 = 0)
/-- the second at the points ≡ 4 (mod 5). -/
theorem hcond1_4 : ∀ t : Fin cfg1.N, cond1_4 (grid1.coords t) ↔ t.val % 5 = 4 :=
  (by decide +kernel : ∀ t : Fin grid1.N, cond1_4 (grid1.coords t) ↔ t.val % 5 = 4)

/-- Offsets zero, however spelt. -/
theorem zeros2 : (![0, 0] : Fin 2 → Nat) = fun _ => 0 := funext fun a => by fin_cases a <;> rfl

/-! ## The body on any whole staging buffers, chunk by chunk

The four buffers hold `a` (the adjacency's block, whatever lies past the matrix included), `s` (the support), `b`
(the bias row) and, where the chunk reads it, `prev` (the running result).  The inputs' buffers are handed back as
found. -/
set_option maxHeartbeats 1000000 in
/-- CHUNK 0.  The result's buffer (holding anything) is overwritten with zeros; the product of the masked adjacency
    block with the support's rows is added to the zeros read back; the sum is stored over the whole buffer, and that
    last store is what the buffer holds: `accA`. -/
theorem runA (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : cond1_0 i) (hc4 : ¬cond1_4 i)
    (a : Vec F S400x2048 .f32) (s : Vec F S10240x256 .bf16) (b : Vec F S1x256 .f32)
    (E : Set ℕ) (K : PUnit → sProp 𝕄) :
    iprop(owns (c : Thread nD τ) arg2 fullShare a ∗ owns (c : Thread nD τ) arg3 fullShare s ∗ owns (c : Thread nD τ) arg4 fullShare b
        ∗ (∃ d, owns (c : Thread nD τ) arg5 fullShare d)
        ∗ (iprop(owns (c : Thread nD τ) arg2 fullShare a ∗ owns (c : Thread nD τ) arg3 fullShare s ∗ owns (c : Thread nD τ) arg4 fullShare b
            ∗ owns (c : Thread nD τ) arg5 fullShare (accA i a s)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the last store covers the buffer, so the buffer reads as its payload; the accumulator the payload adds to is
  -- the zero store read back; the adjacency's load reads `a`, the support's the rows `supRect i` of `s`
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  rw [View.readCov_unit_zero _ hz]
  simp only [View.readAt_eq_ld, harg2.read_unread, harg3.read_unread, View.ld_unit_zero (S := S400x2048) hz]
  rfl

set_option maxHeartbeats 1000000 in
/-- CHUNKS 1, 2, 3.  No reset: the product is added to what the buffer held, `prev`, and the sum stored over the whole
    buffer: `accB`. -/
theorem runB (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : ¬cond1_0 i) (hc4 : ¬cond1_4 i)
    (a : Vec F S400x2048 .f32) (s : Vec F S10240x256 .bf16) (b : Vec F S1x256 .f32) (prev : Vec F S400x256 .f32)
    (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare prev
        ∗ (iprop(owns (c : Thread nD τ) arg2 fullShare a ∗ owns (c : Thread nD τ) arg3 fullShare s ∗ owns (c : Thread nD τ) arg4 fullShare b
            ∗ owns (c : Thread nD τ) arg5 fullShare (accB i a s prev)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- one covering store; its payload's accumulator is the load of the buffer as found
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  simp only [View.readAt_eq_ld, harg2.read_unread, harg3.read_unread, harg5.read_unread, View.ld_unit_zero (S := S400x2048) hz,
    View.ld_unit_zero (S := S400x256) hz]
  rfl

set_option maxHeartbeats 1000000 in
/-- CHUNK 4.  As chunks 1, 2, 3; then the sum just stored is read back, the bias row added to each of its rows and
    the maximum with zero taken, and that is stored over the whole buffer: `accC`. -/
theorem runC (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : ¬cond1_0 i) (hc4 : cond1_4 i)
    (a : Vec F S400x2048 .f32) (s : Vec F S10240x256 .bf16) (b : Vec F S1x256 .f32) (prev : Vec F S400x256 .f32)
    (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare prev
        ∗ (iprop(owns (c : Thread nD τ) arg2 fullShare a ∗ owns (c : Thread nD τ) arg3 fullShare s ∗ owns (c : Thread nD τ) arg4 fullShare b
            ∗ owns (c : Thread nD τ) arg5 fullShare (accC i a s b prev)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the last store covers the buffer; its payload's first argument is the earlier store read back, whose own
  -- accumulator is the load of the buffer as found; the bias's load reads `b`
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  rw [View.readCov_unit_zero _ hz]
  simp only [View.readAt_eq_ld, harg2.read_unread, harg3.read_unread, harg4.read_unread, harg5.read_unread,
    View.ld_unit_zero (S := S400x2048) hz, View.ld_unit_zero (S := S400x256) hz, View.ld_unit_zero (S := S1x256) hz]
  rfl

/-! ## What lies past the matrix does not matter

The adjacency's buffer arrives holding its block's part inside the matrix and anything `d` past it; the data name it with
zeros there.  The chunk's payload masks exactly those columns, so the two give one value. -/

-- the TensorCore's buffer contents when the region is entered
variable (V : (c : Dev nD) → (b : Ref sig .tc) → Buf (Elt F) ((c : Thread nD τ).loc b))

/-- Chunk 0's value does not depend on the filler, -/
theorem accA_fill (i : grid1.Coords) (d d' : S400x2048.Idx → Elt F .f32) (g : (win1_0.xblock i).Idx → Elt F .f32)
    (s : Vec F S10240x256 .bf16) : accA i (win1_0.fill i d g) s = accA i (win1_0.fill i d' g) s :=
  k1_pay2_fill i d d' g _ _
/-- nor chunks 1, 2, 3's, -/
theorem accB_fill (i : grid1.Coords) (d d' : S400x2048.Idx → Elt F .f32) (g : (win1_0.xblock i).Idx → Elt F .f32)
    (s : Vec F S10240x256 .bf16) (prev : Vec F S400x256 .f32) :
    accB i (win1_0.fill i d g) s prev = accB i (win1_0.fill i d' g) s prev :=
  k1_pay2_fill i d d' g _ _
/-- nor chunk 4's (the bias and the clamp act on the chunk's sum). -/
theorem accC_fill (i : grid1.Coords) (d d' : S400x2048.Idx → Elt F .f32) (g : (win1_0.xblock i).Idx → Elt F .f32)
    (s : Vec F S10240x256 .bf16) (b : Vec F S1x256 .f32) (prev : Vec F S400x256 .f32) :
    accC i (win1_0.fill i d g) s b prev = accC i (win1_0.fill i d' g) s b prev :=
  congrArg (fun x => k1_pay3 x b) (k1_pay2_fill i d d' g _ _)

/-! ## The body obligation, at a generic point -/

/-- Each window's current staging buffer at point `t`, and that it is a whole buffer. -/
abbrev ms1_0 (t : Fin cfg1.N) : Memref sig .tc .vmem S400x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x256 .f32 := win1_3.stage (cfg1.slots t 3)
abbrev hs1_3 (t : Fin cfg1.N) : (ms1_3 t).IsWhole := hstage1_3 ((cfg1.slots t 3).cast nbuf1_3)

/-- What the body is called with at point `t`: the invariant, what the core owes, each window's buffer at what it then
    holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it returns: the same at the next position, the adjacency's buffer stated on its part inside the matrix only
    (past it, anything), the other three at what the data say the body leaves. -/
def bodyPost1 (c : Dev nD) (t : Fin cfg1.N) : sProp 𝕄 :=
  iprop((dat1 V c).Φ t.succ ∗ (dat1 V c).owesAt () t.succ
    ∗ (∃ d, owns (c : Thread nD τ) (ms1_0 t) fullShare
        (win1_0.fill (grid1.coords t) d (win1_0.cut (grid1.coords t) ((dat1 V c).after 0 t))))
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point.  The adjacency's buffer holds its block filled out with some `d`, the support's and the
    bias's their arrays; the point's position modulo 5 says which chunk it is.  At chunk 0 the result's buffer holds
    anything and the body leaves `accA`; at a later chunk it holds what the point before left and the body leaves
    `accB`, at chunk 4 `accC`, of the adjacency's buffer as it arrived — which is the same as of the block filled out
    with zeros (`accA_fill`, `accB_fill`, `accC_fill`), the data's value.  The adjacency's buffer is handed back as it came:
    on the part inside the matrix it is the block.  The invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).Φ t.succ = (dat1 V c).Φ t.castSucc from rfl,
    show (dat1 V c).owesAt () t.succ = (dat1 V c).owesAt () t.castSucc from rfl,
    after1_0, after1_1, after1_2, after1_3]
  have hcut : win1_0.cut (grid1.coords t) (ablk V c t) = iblk1 V c 0 t := win1_0.cut_fill _ _ _
  rw [hcut]
  have hN : t.val < 125 := lt_of_lt_of_eq t.isLt (show cfg1.N = 125 from N_1)
  by_cases h0 : t.val % 5 = 0
  · rw [outAt1_A V c t h0]
    simp only [before1_3_A V c t h0]
    iintro ⟨HΦ, Ho, ⟨%d0, H0⟩, ⟨%d1, H1⟩, ⟨%d2, H2⟩, ⟨%d3, H3⟩⟩
    iapply (runA c (grid1.coords t) (ms1_0 t) (hs1_0 t) (ms1_1 t) (hs1_1 t) (ms1_2 t) (hs1_2 t) (ms1_3 t) (hs1_3 t)
      ((hcond1_0 t).mpr h0) (fun h => by have := (hcond1_4 t).mp h; omega)
      (win1_0.fill (grid1.coords t) d0 (iblk1 V c 0 t)) (iblk1 V c 1 t) (iblk1 V c 2 t) Set.univ _)
    isplitl [H0]; · iexact H0
    isplitl [H1]; · iexact H1
    isplitl [H2]; · iexact H2
    isplitl [H3]; · iexists d3; iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    rw [show accA (grid1.coords t) (ablk V c t) (iblk1 V c 1 t)
        = accA (grid1.coords t) (win1_0.fill (grid1.coords t) d0 (iblk1 V c 0 t)) (iblk1 V c 1 t) from
      accA_fill (grid1.coords t) _ d0 (iblk1 V c 0 t) (iblk1 V c 1 t)]
    iexact H3
  · simp only [before1_3_B V c t h0]
    by_cases h4 : t.val % 5 = 4
    · rw [outAt1_C V c t h4]
      iintro ⟨HΦ, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t)
        (fun h => h0 ((hcond1_0 t).mp h)) ((hcond1_4 t).mpr h4)
        (win1_0.fill (grid1.coords t) d0 (iblk1 V c 0 t)) (iblk1 V c 1 t) (iblk1 V c 2 t)
        (outAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexists d0; iexact H0
      isplitl [H1]; · iexact H1
      isplitl [H2]; · iexact H2
      rw [show accC (grid1.coords t) (ablk V c t) (iblk1 V c 1 t) (iblk1 V c 2 t) (outAt1 V c (t.val - 1) (Nat.lt_of_le_of_lt (Nat.sub_le _ _) t.isLt))
          = accC (grid1.coords t) (win1_0.fill (grid1.coords t) d0 (iblk1 V c 0 t)) (iblk1 V c 1 t) (iblk1 V c 2 t) (outAt1 V c (t.val - 1) (Nat.lt_of_le_of_lt (Nat.sub_le _ _) t.isLt)) from
        accC_fill (grid1.coords t) _ d0 (iblk1 V c 0 t) (iblk1 V c 1 t) (iblk1 V c 2 t) _]
      iexact H3
    · rw [outAt1_B V c t h0 h4]
      iintro ⟨HΦ, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t)
        (fun h => h0 ((hcond1_0 t).mp h)) (fun h => h4 ((hcond1_4 t).mp h))
        (win1_0.fill (grid1.coords t) d0 (iblk1 V c 0 t)) (iblk1 V c 1 t) (iblk1 V c 2 t)
        (outAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexists d0; iexact H0
      isplitl [H1]; · iexact H1
      isplitl [H2]; · iexact H2
      rw [show accB (grid1.coords t) (ablk V c t) (iblk1 V c 1 t) (outAt1 V c (t.val - 1) (Nat.lt_of_le_of_lt (Nat.sub_le _ _) t.isLt))
          = accB (grid1.coords t) (win1_0.fill (grid1.coords t) d0 (iblk1 V c 0 t)) (iblk1 V c 1 t) (outAt1 V c (t.val - 1) (Nat.lt_of_le_of_lt (Nat.sub_le _ _) t.isLt)) from
        accB_fill (grid1.coords t) _ d0 (iblk1 V c 0 t) (iblk1 V c 1 t) _]
      iexact H3

/-- The library's body obligation for region 1 (the adjacency's window stated on its part inside the matrix only). -/
theorem body_obligation1 (c : Dev nD) : BodyObligationLoose (dat1 (F := F) V c) (defs₀ (F := F)) Variants.none () Set.univ := fun t => by
  rw [bigSep_W1, bigSep_W1]
  exact sound_body1 V c t

end Cert.Kernel.Hand

end
-- ==== Proof.Kernel.Run.lean ====
/-
  The run of @main: a host stretch (the padding of `x`), region 0, a host stretch (the bias as a row), region 1.
  The buffers' contents at each boundary are a fold from the launch memory: a stretch's operations applied, a
  region's arrays at what its write-backs leave.  `run_main`: every weakly fair execution terminates, the result
  array ends at what region 1's write-backs leave, and the four arguments end as launched.
-/
import proofs.«163589_g31456340476406_cont_sun_m_339_6_alg».proof.Proof.Kernel.Body0
import proofs.«163589_g31456340476406_cont_sun_m_339_6_alg».proof.Proof.Kernel.Body1
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

/-! ## The fold, read buffer by buffer

A region's exit contents are its entry contents with the windows' arrays replaced: at a window's array they are what
the write-backs leave, at any other buffer they are the entry contents. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! A host stretch changes only the buffers its operations write: the first stretch its constant, the converted
    constant and the padded `x`; the second the bias row. -/

/-- The buffers the first stretch writes. -/
abbrev wr0 : List (Ref sig .tc) := [main_call0_c, main_call0_call0_v0, main_call0_v0]
/-- The buffer the second stretch writes. -/
abbrev wr1 : List (Ref sig .tc) := [main_call0_v2]

theorem hostOps0_wr : (hostOps0 : List (HloOp τ sig (Elt F))).Forall fun op =>
    op.writes ⊆ (wr0.map (Proc.devRef (τ := τ) .tc)).toFinset := by
  refine ⟨?_, ?_, ?_⟩ <;>
    exact Finset.singleton_subset_iff.mpr (List.mem_toFinset.mpr (List.mem_map_of_mem (by decide)))
theorem hostOps1_wr : (hostOps1 : List (HloOp τ sig (Elt F))).Forall fun op =>
    op.writes ⊆ (wr1.map (Proc.devRef (τ := τ) .tc)).toFinset := by
  exact Finset.singleton_subset_iff.mpr (List.mem_toFinset.mpr (List.mem_map_of_mem (by decide)))

/-- A buffer the first stretch does not write is entered by region 0 as launched. -/
theorem W1_keep (c : Dev nD) (r : Ref sig .tc) (h : r ∉ wr0) :
    W1 m c (Proc.devRef .tc r) = m ((c : Thread nD τ).loc r) :=
  (StableHlo.after_of_writes_sub hostOps0 _ hostOps0_wr h).trans rfl
/-- A buffer the second stretch does not write is entered by region 1 as region 0 left it. -/
theorem W3_keep (c : Dev nD) (r : Ref sig .tc) (h : r ∉ wr1) :
    W3 m c (Proc.devRef .tc r) = W2 m c (Proc.devRef .tc r) :=
  StableHlo.after_of_writes_sub hostOps1 _ hostOps1_wr h

/-! ## What the regions are entered from, array by array -/

/-- Region 0 finds `W` as launched, -/
theorem V1_main_arg2 (c : Dev nD) : V1 m c main_arg2 = m ((c : Thread nD τ).loc main_arg2) := by
  exact W1_keep m c main_arg2 (by decide)
/-- and the padded `x`: the launch's `x` with 240 rows of the converted integer zero appended. -/
theorem V1_main_call0_v0 (c : Dev nD) :
    (V1 m c main_call0_v0 : Vec F S10240x256 .f32)
      = pad S10240x256 ![0, 0] ![240, 0] ![0, 0] (m ((c : Thread nD τ).loc main_arg0)) (sitofp .f32 (constantI S_ 32 0#32))
          pads_S10000x256_S10240x256_02400_000 h_S_ := by
  show StableHlo.after hostOps0 _ (Proc.devRef .tc main_call0_v0) = _
  after_results
  rfl
/-- Region 1 finds the adjacency as launched, -/
theorem V3_main_arg1 (c : Dev nD) : V3 m c main_arg1 = m ((c : Thread nD τ).loc main_arg1) := by
  exact (W3_keep m c main_arg1 (by decide)).trans
    ((W2_of_ne m c main_arg1 (by decide)).trans (W1_keep m c main_arg1 (by decide)))
/-- the support as region 0's write-backs left it, -/
theorem V3_main_call0_v1 (c : Dev nD) : V3 m c main_call0_v1 = (dat0 (V1 m) c).arrAt 2 cfg0.N := by
  exact (W3_keep m c main_call0_v1 (by decide)).trans (W2_arr m c 2)
/-- and the bias as a row. -/
theorem V3_main_call0_v2 (c : Dev nD) :
    (V3 m c main_call0_v2 : Vec F S1x256 .f32) = shapeCast S1x256 (m ((c : Thread nD τ).loc main_arg3)) shapeCasts_S256_S1x256 := by
  have hb : W2 m c (Proc.devRef .tc main_arg3) = m ((c : Thread nD τ).loc main_arg3) :=
    (W2_of_ne m c main_arg3 (by decide)).trans (W1_keep m c main_arg3 (by decide))
  show StableHlo.after hostOps1 _ (Proc.devRef .tc main_call0_v2) = _
  after_results
  rw [hb]
  rfl

/-! ### The arguments end as launched

No host operation writes an argument, and a region only reads one (through an input window, whose array the
write-backs leave as found) or passes it by. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_of_ne m c main_arg0 (by decide)
    _ = m ((c : Thread nD τ).loc main_arg0) := W1_keep m c main_arg0 (by decide)
theorem W4_main_arg1 (c : Dev nD) : W4 m c (Proc.devRef .tc main_arg1) = m ((c : Thread nD τ).loc main_arg1) :=
  calc W4 m c (Proc.devRef .tc main_arg1)
    _ = (dat1 (V3 m) c).arrAt 0 cfg1.N := W4_arr m c 0
    _ = V3 m c main_arg1 := ((dat1 (V3 m) c).arrAt_in 0 rfl _).trans (A_eq1 (V3 m) c 0)
    _ = m ((c : Thread nD τ).loc main_arg1) := V3_main_arg1 m c
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = (dat0 (V1 m) c).arrAt 1 cfg0.N := W2_arr m c 1
    _ = V1 m c main_arg2 := ((dat0 (V1 m) c).arrAt_in 1 rfl _).trans (A_eq0 (V1 m) c 1)
    _ = m ((c : Thread nD τ).loc main_arg2) := V1_main_arg2 m c
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_of_ne m c main_arg3 (by decide)
    _ = m ((c : Thread nD τ).loc main_arg3) := W1_keep m c main_arg3 (by decide)

/-! ## The proof data family and the thread state -/

/-- No pipeline has a prefetched table. -/
abbrev adm : (p : Fin 2) → (pcfgs (F := F) p).Adm := fun p => (cfgs p).toPCfg_adm
/-- Each pipeline's proof data, at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped buffers from contents `W`, `R` riding along; it ends at the
    stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at region 1's exit contents, the generator
    register at some state. -/
abbrev Tₙ (c : Dev nD) : sProp 𝕄 := iprop(StableHlo.held (c : Thread nD τ) (Pipeline.ucRefs τ sig) (W4 m c) ∗ ∃ r, prngReg c r)

/-! ## The regions as segments

A region is entered from every unscoped buffer at its entry contents: its windows' arrays are split out of them and,
at the exit, put back at what the write-backs leave; the generator register goes into the pipeline's invariant and
comes back; nothing is owed; the kernel has no semaphore of its own. -/

set_option backward.isDefEq.respectTransparency.types false in
/-- Region 0: entered at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W3`, left at `W4` (the last thread state, beside the core owing nothing). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's four segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- Every weakly fair execution of @main from `m` with zero counters terminates; the result array ends at what
    region 1's write-backs leave and the arguments end as launched. -/
theorem run_main : θ_run defs (onTc (τ := τ) (main (F := F))) ⟨m, fun _ => 0, ρ⟩ (fun r => ∀ c : Dev nD,
      r.2.mem ((c.tc : Thread nD τ).loc main_v0) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.Kernel.Hand

end
-- ==== Proof.KernelIdeal.Data.lean ====
/-
  The proof data of the two kernel regions, at any float instance `F` and at any contents `V` the region is entered
  from.

  REGION 0 (the support).  At point `t` of its five points the body reads its two input blocks whole — rows
  `2048 t …` of the padded `x`, and all of `W` — and stores into the result's staging buffer ONE value: their product
  rounded to the narrow format (`sup0`).  Nothing is carried from point to point.

  REGION 1 (the aggregation).  Its 125 points are 25 row blocks of 400 rows times 5 chunks `k` of 2048 columns of
  the adjacency; the result's staging buffer is kept across the five chunks of one row block and written back after the
  fifth.  What the buffer holds after the body at a point (`outAt1`) is therefore a recursion on the point:
    * chunk 0 (`accA`): the buffer is reset to zero and the chunk's product added to it;
    * chunks 1, 2, 3 (`accB`): the chunk's product added to what the point before left;
    * chunk 4 (`accC`): the same, then the bias row added and the result clamped at zero.
  The adjacency's last chunk runs 240 columns past the matrix: the fetch fills only the block's part inside the
  matrix and the rest of the staging buffer holds words nothing names.  The data name the buffer with zeros there
  (`ablk`); the body masks exactly those columns before the product, so what it computes does not depend on them.
-/
import proofs.«163589_g31456340476406_cont_sun_m_339_6_alg».proof.Proof.Gen.KernelIdeal.Launch
import proofs.«163589_g31456340476406_cont_sun_m_339_6_alg».proof.Proof.Gen.KernelIdeal.Skeleton
import proofs.«163589_g31456340476406_cont_sun_m_339_6_alg».proof.Proof.Gen.KernelIdeal.Points
import Idealize.ShloMosaic.Lib.Pipeline.FrameBody
import Idealize.ShloMosaic.Lib.Pipeline.Frame
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0: the support -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body stores into the result's staging buffer, from its two input blocks. -/
def sup0 (x0 : Vec F S2048x256 .f32) (x1 : Vec F S256x256 .f32) : Vec F S2048x256 .bf16 := k0_pay1 x0 x1

/-- The proof data of region 0: the arrays as found; after the body each input's buffer at its block and the
    result's at `sup0` of them; the scoped rest and the generator register pass through; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => sup0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = sup0 (iblk0 V c 0 t) (iblk0 V c 1 t) := by
  dsimp only [dat0]

/-- Each input's staging buffer holds its block when the body runs, fetched at that point or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- The result's staging buffer holds anything: it is written back after every point. -/
theorem before0_2 (c : Dev nD) (t : Fin cfg0.N) (d) : (dat0 V c).before 2 t d = d := by
  refine (dat0 V c).before_out_reset 2 rfl t ?_ d
  by_cases h0 : t.val = 0
  · exact .inl h0
  · exact .inr ⟨h0, flush0_2 _⟩

/-! # Region 1: the aggregation -/

/-- Window `w`'s block at point `t`, read off its array as the region finds it (for the adjacency: the block's part
    inside the matrix). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency's staging buffer as the data name it: the block's part inside the matrix, zeros past it. -/
def ablk (c : Dev nD) (t : Fin cfg1.N) : Vec F S400x2048 .f32 :=
  win1_0.fill (grid1.coords t) (fun _ => Scalar.ofBits .f32 0#32) (iblk1 V c 0 t)

/-- The rows of the support the body loads at grid coordinates `i`: rows `2048 · i 1 …`. -/
abbrev supRect (i : grid1.Coords) : Rect S10240x256 := Rect.unit (s := S10240x256) (k1_off1 i) S2048x256.size (k1_off1_inb i)

/-- Chunk 0: the buffer reset to zero, the chunk's product added. -/
def accA (i : grid1.Coords) (a : Vec F S400x2048 .f32) (s : Vec F S10240x256 .bf16) : Vec F S400x256 .f32 :=
  k1_pay2 i a (View.ld s (supRect i)) (k1_pay1 (F := F))
/-- Chunks 1, 2, 3: the chunk's product added to what the point before left. -/
def accB (i : grid1.Coords) (a : Vec F S400x2048 .f32) (s : Vec F S10240x256 .bf16) (prev : Vec F S400x256 .f32) : Vec F S400x256 .f32 :=
  k1_pay2 i a (View.ld s (supRect i)) prev
/-- Chunk 4: the same, then the bias added and the result clamped at zero. -/
def accC (i : grid1.Coords) (a : Vec F S400x2048 .f32) (s : Vec F S10240x256 .bf16) (b : Vec F S1x256 .f32) (prev : Vec F S400x256 .f32) : Vec F S400x256 .f32 :=
  k1_pay3 (k1_pay2 i a (View.ld s (supRect i)) prev) b

/-- What the result's staging buffer holds after the body at position `n`, by recursion on the position. -/
def outAt1 (c : Dev nD) : (n : ℕ) → n < cfg1.N → Vec F S400x256 .f32
  | 0, hn => accA (grid1.coords ⟨0, hn⟩) (ablk V c ⟨0, hn⟩) (iblk1 V c 1 ⟨0, hn⟩)
  | n + 1, hn =>
    if (n + 1) % 5 = 0 then
      accA (grid1.coords ⟨n + 1, hn⟩) (ablk V c ⟨n + 1, hn⟩) (iblk1 V c 1 ⟨n + 1, hn⟩)
    else if (n + 1) % 5 = 4 then
      accC (grid1.coords ⟨n + 1, hn⟩) (ablk V c ⟨n + 1, hn⟩) (iblk1 V c 1 ⟨n + 1, hn⟩) (iblk1 V c 2 ⟨n + 1, hn⟩) (outAt1 c n (Nat.lt_of_succ_lt hn))
    else
      accB (grid1.coords ⟨n + 1, hn⟩) (ablk V c ⟨n + 1, hn⟩) (iblk1 V c 1 ⟨n + 1, hn⟩) (outAt1 c n (Nat.lt_of_succ_lt hn))

theorem outAt1_A (c : Dev nD) (t : Fin cfg1.N) (h0 : t.val % 5 = 0) :
    outAt1 V c t.val t.isLt = accA (grid1.coords t) (ablk V c t) (iblk1 V c 1 t) := by
  obtain ⟨n, hn⟩ := t
  cases n with
  | zero => rfl
  | succ n => exact (if_pos h0).trans rfl
theorem outAt1_B (c : Dev nD) (t : Fin cfg1.N) (h0 : ¬t.val % 5 = 0) (h4 : ¬t.val % 5 = 4) :
    outAt1 V c t.val t.isLt = accB (grid1.coords t) (ablk V c t) (iblk1 V c 1 t)
      (outAt1 V c (t.val - 1) (Nat.lt_of_le_of_lt (Nat.sub_le _ _) t.isLt)) := by
  obtain ⟨n, hn⟩ := t
  cases n with
  | zero => exact absurd (Nat.zero_mod _) h0
  | succ n => exact (if_neg h0).trans ((if_neg h4).trans rfl)
theorem outAt1_C (c : Dev nD) (t : Fin cfg1.N) (h4 : t.val % 5 = 4) :
    outAt1 V c t.val t.isLt = accC (grid1.coords t) (ablk V c t) (iblk1 V c 1 t) (iblk1 V c 2 t)
      (outAt1 V c (t.val - 1) (Nat.lt_of_le_of_lt (Nat.sub_le _ _) t.isLt)) := by
  obtain ⟨n, hn⟩ := t
  cases n with
  | zero => exact absurd (show (0 : ℕ) % 5 = 4 from h4) (by decide)
  | succ n =>
    have h4' : (n + 1) % 5 = 4 := h4
    exact (if_neg (by omega)).trans ((if_pos h4').trans rfl)

/-- The proof data of region 1. -/
def dat1 (c : Dev nD) : Dat τ (Elt F) Unit ℕ (UR sig nD τ) ℕ cfg1 c where
  A w := V c (Pipeline.arrRef spec1 w)
  after w t := match w with
    | ⟨0, _⟩ => ablk V c t
    | ⟨1, _⟩ => iblk1 V c 1 t
    | ⟨2, _⟩ => iblk1 V c 2 t
    | ⟨3, _⟩ => outAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = ablk V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

/-- The adjacency's staging buffer when the body runs: just fetched — the block's part inside the matrix, `d` past it. -/
theorem before1_0 (c : Dev nD) (t : Fin cfg1.N) (d) :
    (dat1 V c).before 0 t d = win1_0.fill (grid1.coords t) d (iblk1 V c 0 t) := by
  rw [(dat1 V c).before_fetched 0 t (fetch1_0 t) d]
  unfold Dat.fetched Dat.blockOf iblk1; rw [A_eq1]; try rfl
/-- The support's and the bias's staging buffers hold their (whole) arrays at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- The result's staging buffer at a row block's first chunk holds anything (the first point, or just written back); -/
theorem before1_3_A (c : Dev nD) (t : Fin cfg1.N) (h0 : t.val % 5 = 0) (d) : (dat1 V c).before 3 t d = d := by
  refine (dat1 V c).before_out_reset 3 rfl t ?_ d
  by_cases hz : t.val = 0
  · exact .inl hz
  · exact .inr ⟨hz, (flush1_3 _).mpr (by dsimp only; omega)⟩
/-- at a later chunk, what the body left at the point before. -/
theorem before1_3_B (c : Dev nD) (t : Fin cfg1.N) (h0 : ¬t.val % 5 = 0) (d) :
    (dat1 V c).before 3 t d = outAt1 V c (t.val - 1) (Nat.lt_of_le_of_lt (Nat.sub_le _ _) t.isLt) := by
  rw [Dat.before_out_kept _ 3 rfl t (by omega) (Bool.eq_false_iff.mpr fun h => by have := (flush1_3 _).mp h; dsimp only at this; omega)
    (fun _ => rfl) (fun _ _ => rfl)]
  dsimp only [dat1]

end Cert.KernelIdeal.Hand

end
-- ==== Proof.KernelIdeal.Body0.lean ====
/-
  Region 0's body at every point: two whole loads (the block of the padded `x`, all of `W`), their product rounded
  to the narrow format, a dead load of the result's staging buffer, one whole store.  The result's buffer ends at
  `sup0` of the two blocks; the inputs' buffers are left as found.
-/
import proofs.«163589_g31456340476406_cont_sun_m_339_6_alg».proof.Proof.KernelIdeal.Data
import Idealize.ShloMosaic.Lib.Pipeline.Value
import Idealize.ShloMosaic.Lib.Tactic
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of a whole-buffer access, as the program writes them, are zero on both axes. -/
private theorem zero2 : (![0, 0] : Fin 2 → Nat) = fun _ => 0 := funext fun a => by fin_cases a <;> rfl

/-- One piece through the whole-shape rectangle at zero offsets covers every index of the shape. -/
private theorem cover_unit_zero {Val : EltTy → Type} {S : Shape} {e : EltTy} {off : Fin S.rank → Nat} (h : off = fun _ => 0)
    (inb : ∀ a, off a + S.size a ≤ S.size a) (w : S.Idx → Val e) (y : S.Idx) :
    ∃ pc ∈ ([⟨Rect.unit off S.size inb, w⟩] : List (View.Piece Val S e)), y ∈ pc.1.set := by
  subst h
  exact ⟨_, List.mem_singleton_self _, by show y ∈ (Rect.whole S).set; rw [Rect.set_whole]; exact Finset.mem_univ y⟩

/-! ## The body's triple -/

set_option maxHeartbeats 1000000 in
/-- The body on whole staging memrefs: with the inputs' at contents `x0`, `x1` and the result's at anything, it runs to
    the continuation holding the inputs' as they were and the result's at `sup0 x0 x1`.  The two loads read the
    contents (a whole load at zero offsets); the load of the result's buffer is dead; the one store covers the buffer,
    so what is read back is its payload, whatever the buffer held. -/
theorem sound_kernel0 (c : Dev nD) (E : Set ℕ) (i : grid0.Coords)
    (arg1 : Memref sig .tc .vmem S2048x256 .f32) (harg1 : arg1.IsWhole)
    (arg2 : Memref sig .tc .vmem S256x256 .f32) (harg2 : arg2.IsWhole)
    (arg3 : Memref sig .tc .vmem S2048x256 .bf16) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (sup0 x0 x1)) -∗ K ⟨⟩))
      ⊢ wp frame (wpE (defs₀ (F := F)) Variants.none c none) E (cc0__support_body i arg1 harg1 arg2 harg2 arg3 harg3) K := by
  simp only [cc0__support_body_eq_skeleton]; unfold cc0__support_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  unfold sup0
  rw [View.read_writes_eq_canon _ _ _ (cover_unit_zero zero2 _ _), View.canon_unit_zero zero2,
    View.readAt_eq_ld, View.readAt_eq_ld, View.ld_unit_zero zero2, View.ld_unit_zero zero2]

/-! ## The body obligation, at a generic point -/

/-- What the body is called with at point `t`: the invariant, what is owed, and the three windows' current staging
    buffers, each at what the data say it holds before the body; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: the same, each buffer at what the data say it holds after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks and the result's holds anything, so the body's
    triple applies; the invariant and what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KernelIdeal.Mask.lean ====
/-
  The column mask of region 1's body.  At grid coordinates `i` (chunk `k = i 1`) the body compares, lane by lane,
  the adjacency column `2048 k + jj` of lane `(p, jj)` with 10000 and replaces the lane by zero where the column is
  not below it.  The adjacency's block is cut at the matrix's last column, never at a row (400 divides 10000): the
  lanes a fetch fills are exactly the lanes the mask keeps.  So the chunk's product does not depend on what the
  staging buffer holds past the matrix.
-/
import proofs.«163589_g31456340476406_cont_sun_m_339_6_alg».proof.Proof.KernelIdeal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The mask the body computes: lane `(p, jj)` is kept iff column `2048 · i 1 + jj` is below 10000. -/
def colMask (i : grid1.Coords) : IVec S400x2048 1 :=
  cmpi .slt (addi (broadcast S400x2048 (Scalar.muli (BitVec.ofNat 32 (i 1).val) 2048#32)) (iota .tc S400x2048 32 [1] iota_S400x2048_d1_w32))
    (broadcast S400x2048 (10000#32 : BitVec 32))

/-- The chunk's payload with the mask named. -/
theorem k1_pay2_eq (i : grid1.Coords) (a : Vec F S400x2048 .f32) (s : Vec F S2048x256 .bf16) (p : Vec F S400x256 .f32) :
    k1_pay2 i a s p = addf (shapeCast S400x256 p shapeCasts_S400x256_S400x256)
      (matmul dot_S400x2048_S2048x256_S400x256_1_0_0_1_n_n none
        (select (colMask i) (truncf .bf16 a bitsLt_bf16_f32) (broadcast S400x2048 (Scalar.ofBits .bf16 0x0000#16)))
        (shapeCast S2048x256 s shapeCasts_S2048x256_S2048x256) (constant S400x256 .f32 0x00000000#32)) := rfl

/-- No 32-bit wrap-around: for `k < 5` and `jj < 2048` the word `k · 2048 + jj` is the number, read signed. -/
private theorem word_slt (k jj : ℕ) (hk : k < 5) (hj : jj < 2048) :
    (IntOp.addi (Scalar.muli (BitVec.ofNat 32 k) 2048#32) (BitVec.ofNat 32 jj)).toInt < (10000#32 : BitVec 32).toInt
      ↔ 2048 * k + jj < 10000 := by
  have e : IntOp.addi (Scalar.muli (BitVec.ofNat 32 k) 2048#32) (BitVec.ofNat 32 jj) = BitVec.ofNat 32 (k * 2048 + jj) := by
    show BitVec.ofNat 32 k * BitVec.ofNat 32 2048 + BitVec.ofNat 32 jj = _
    rw [BitVec.ofNat_add, BitVec.ofNat_mul]
  rw [e, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  omega

/-- The lane sequence along axis 1 reads, at a lane, its column coordinate as a word. -/
private theorem iota_col (j : S400x2048.Idx) :
    iota .tc S400x2048 32 [1] iota_S400x2048_d1_w32 j = BitVec.ofNat 32 (j 1).val := by
  show BitVec.ofNat 32 (0 * S400x2048.size 1 + (j 1).val) = _
  rw [Nat.zero_mul, Nat.zero_add]

/-- The mask decoded: no 32-bit wrap-around occurs, since `i 1 < 5` and `jj < 2048`. -/
theorem colMask_iff (i : grid1.Coords) (j : S400x2048.Idx) : colMask i j = 1#1 ↔ 2048 * (i 1).val + (j 1).val < 10000 := by
  have hk : (i 1).val < 5 := (i 1).isLt
  have hj : (j 1).val < 2048 := (j 1).isLt
  show IntOp.cmpi .slt (IntOp.addi (Scalar.muli (BitVec.ofNat 32 (i 1).val) 2048#32)
    (iota .tc S400x2048 32 [1] iota_S400x2048_d1_w32 j)) (10000#32 : BitVec 32) = 1#1 ↔ _
  rw [IntOp.cmpi_slt, iota_col]
  exact word_slt _ _ hk hj

/-- The adjacency's block is never cut at a row: `400 · (i 0 + 1) ≤ 10000` for `i 0 < 25`. -/
private theorem xsize_row (i : grid1.Coords) : win1_0.xsize i 0 = 400 := by
  have h0 : (i 0).val < 25 := (i 0).isLt
  show (Pipeline.Clip.of (BitVec.ofNat 32 (i 0).val).toNat 400 10000).extent 400 = 400
  rw [BitVec.toNat_ofNat, Nat.mod_eq_of_lt (by omega)]
  unfold Pipeline.Clip.of
  rw [if_pos (by omega)]

/-- Along the columns the block is cut at the matrix's last column. -/
private theorem xsize_col (i : grid1.Coords) : win1_0.xsize i 1 = min 2048 (10000 - 2048 * (i 1).val) := by
  have h1 : (i 1).val < 5 := (i 1).isLt
  show (Pipeline.Clip.of (BitVec.ofNat 32 (i 1).val).toNat 2048 10000).extent 2048 = _
  rw [BitVec.toNat_ofNat, Nat.mod_eq_of_lt (by omega)]
  unfold Pipeline.Clip.of
  split
  · show 2048 = _; omega
  · show 10000 - (i 1).val * 2048 = _; omega

/-- The lanes a fetch of the adjacency's block fills are the lanes whose column lies inside the matrix. -/
theorem moved_iff_col (i : grid1.Coords) (j : S400x2048.Idx) : win1_0.moved i j = true ↔ 2048 * (i 1).val + (j 1).val < 10000 := by
  have hp : (j 0).val < 400 := (j 0).isLt
  have hj : (j 1).val < 2048 := (j 1).isLt
  have h1 : (i 1).val < 5 := (i 1).isLt
  rw [Window.moved_iff]
  constructor
  · intro h
    have h' : (j 1).val < win1_0.xsize i 1 := h 1
    rw [xsize_col] at h'; omega
  · intro h a
    match a with
    | ⟨0, _⟩ => show (j 0).val < win1_0.xsize i 0; rw [xsize_row]; exact hp
    | ⟨1, _⟩ => show (j 1).val < win1_0.xsize i 1; rw [xsize_col]; omega

/-- A masked narrowing reads its operand only on the lanes the mask keeps. -/
private theorem select_truncf_congr (m : IVec S400x2048 1) (a a' : Vec F S400x2048 .f32) (z : FVec F S400x2048 .bf16)
    (h : ∀ j, m j = 1#1 → a j = a' j) :
    select m (truncf .bf16 a bitsLt_bf16_f32) z = select m (truncf .bf16 a' bitsLt_bf16_f32) z := by
  funext j
  unfold select truncf Scalar.select
  by_cases hm : m j = (1 : BitVec 1)
  · rw [if_pos hm, if_pos hm, h j hm]
  · rw [if_neg hm, if_neg hm]

/-- The chunk's payload does not depend on what the staging buffer holds past the matrix. -/
theorem k1_pay2_fill (i : grid1.Coords) (d d' : S400x2048.Idx → Elt F .f32) (g : (win1_0.xblock i).Idx → Elt F .f32)
    (s : Vec F S2048x256 .bf16) (p : Vec F S400x256 .f32) :
    k1_pay2 i (win1_0.fill i d g) s p = k1_pay2 i (win1_0.fill i d' g) s p := by
  rw [k1_pay2_eq, k1_pay2_eq]
  -- a kept lane has its column inside the matrix, so the fetch filled it: both buffers hold the fetched word there
  rw [select_truncf_congr (colMask i) (win1_0.fill i d g) (win1_0.fill i d' g) _ fun j hj => by
    have hm : win1_0.moved i j = true := (moved_iff_col i j).mpr ((colMask_iff i j).mp hj)
    unfold Window.fill
    rw [dif_pos hm, dif_pos hm]]

end Cert.KernelIdeal.Hand

end
-- ==== Proof.KernelIdeal.Body1.lean ====
/-
  Region 1's body at every point, by the chunk `k` the point is in (its position modulo 5): at chunk 0 the result's
  staging buffer is reset and the chunk's product added; at chunks 1, 2, 3 the product is added to what the buffer
  held; at chunk 4 the bias is then added and the result clamped at zero.  The adjacency's staging buffer may hold
  anything past the matrix's last column; the body masks exactly those columns before the product.

  Every access of the result's, the adjacency's and the bias's buffers is through the whole buffer (offsets zero, the
  buffer's own sizes): a load reads the contents, a store leaves its payload, and a load after a store reads that
  payload back.  The support is loaded through the rows `2048 k …` of its buffer, which is how the data state it.
  So per chunk the result's buffer ends at `accA`, `accB` or `accC` of what the four buffers held, with the
  adjacency's buffer as it arrived; replacing what that buffer holds past the matrix by zeros does not change the
  payload (the mask), which gives the data's `ablk`.
-/
import proofs.«163589_g31456340476406_cont_sun_m_339_6_alg».proof.Proof.KernelIdeal.Data
import proofs.«163589_g31456340476406_cont_sun_m_339_6_alg».proof.Proof.KernelIdeal.Mask
import Idealize.ShloMosaic.Lib.Tactic
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditions -/

/-- The first condition of the body, from the grid coordinates: the chunk `k = i 1` is 0. -/
abbrev cond1_0 (i : grid1.Coords) : Prop := (Scalar.cmpi .ne (Scalar.extui (Scalar.cmpi .eq (BitVec.ofNat 32 (i 1).val) 0#32)) 0#32) = 1#1
/-- The second: the chunk is 4. -/
abbrev cond1_4 (i : grid1.Coords) : Prop := (Scalar.cmpi .ne (Scalar.extui (Scalar.cmpi .eq (BitVec.ofNat 32 (i 1).val) 4#32)) 0#32) = 1#1

/-- Point `t = 5 ib + k` has chunk `k = t mod 5`: the first condition holds at the points ≡ 0, -/
theorem hcond1_0 : ∀ t : Fin cfg1.N, cond1_0 (grid1.coords t) ↔ t.val % 5 = 0 :=
  (by decide +kernel : ∀ t : Fin grid1.N, cond1_0 (grid1.coords t) ↔ t.val % 5 = 0)
/-- the second at the points ≡ 4 (mod 5). -/
theorem hcond1_4 : ∀ t : Fin cfg1.N, cond1_4 (grid1.coords t) ↔ t.val % 5 = 4 :=
  (by decide +kernel : ∀ t : Fin grid1.N, cond1_4 (grid1.coords t) ↔ t.val % 5 = 4)

/-- Offsets zero, however spelt. -/
theorem zeros2 : (![0, 0] : Fin 2 → Nat) = fun _ => 0 := funext fun a => by fin_cases a <;> rfl

/-! ## The body on any whole staging buffers, chunk by chunk

The four buffers hold `a` (the adjacency's block, whatever lies past the matrix included), `s` (the support), `b`
(the bias row) and, where the chunk reads it, `prev` (the running result).  The inputs' buffers are handed back as
found. -/
set_option maxHeartbeats 1000000 in
/-- CHUNK 0.  The result's buffer (holding anything) is overwritten with zeros; the product of the masked adjacency
    block with the support's rows is added to the zeros read back; the sum is stored over the whole buffer, and that
    last store is what the buffer holds: `accA`. -/
theorem runA (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : cond1_0 i) (hc4 : ¬cond1_4 i)
    (a : Vec F S400x2048 .f32) (s : Vec F S10240x256 .bf16) (b : Vec F S1x256 .f32)
    (E : Set ℕ) (K : PUnit → sProp 𝕄) :
    iprop(owns (c : Thread nD τ) arg2 fullShare a ∗ owns (c : Thread nD τ) arg3 fullShare s ∗ owns (c : Thread nD τ) arg4 fullShare b
        ∗ (∃ d, owns (c : Thread nD τ) arg5 fullShare d)
        ∗ (iprop(owns (c : Thread nD τ) arg2 fullShare a ∗ owns (c : Thread nD τ) arg3 fullShare s ∗ owns (c : Thread nD τ) arg4 fullShare b
            ∗ owns (c : Thread nD τ) arg5 fullShare (accA i a s)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the last store covers the buffer, so the buffer reads as its payload; the accumulator the payload adds to is
  -- the zero store read back; the adjacency's load reads `a`, the support's the rows `supRect i` of `s`
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  rw [View.readCov_unit_zero _ hz]
  simp only [View.readAt_eq_ld, harg2.read_unread, harg3.read_unread, View.ld_unit_zero (S := S400x2048) hz]
  rfl

set_option maxHeartbeats 1000000 in
/-- CHUNKS 1, 2, 3.  No reset: the product is added to what the buffer held, `prev`, and the sum stored over the whole
    buffer: `accB`. -/
theorem runB (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : ¬cond1_0 i) (hc4 : ¬cond1_4 i)
    (a : Vec F S400x2048 .f32) (s : Vec F S10240x256 .bf16) (b : Vec F S1x256 .f32) (prev : Vec F S400x256 .f32)
    (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare prev
        ∗ (iprop(owns (c : Thread nD τ) arg2 fullShare a ∗ owns (c : Thread nD τ) arg3 fullShare s ∗ owns (c : Thread nD τ) arg4 fullShare b
            ∗ owns (c : Thread nD τ) arg5 fullShare (accB i a s prev)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- one covering store; its payload's accumulator is the load of the buffer as found
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  simp only [View.readAt_eq_ld, harg2.read_unread, harg3.read_unread, harg5.read_unread, View.ld_unit_zero (S := S400x2048) hz,
    View.ld_unit_zero (S := S400x256) hz]
  rfl

set_option maxHeartbeats 1000000 in
/-- CHUNK 4.  As chunks 1, 2, 3; then the sum just stored is read back, the bias row added to each of its rows and
    the maximum with zero taken, and that is stored over the whole buffer: `accC`. -/
theorem runC (c : Dev nD) (i : grid1.Coords)
    (arg2 : Memref sig .tc .vmem S400x2048 .f32) (harg2 : arg2.IsWhole)
    (arg3 : Memref sig .tc .vmem S10240x256 .bf16) (harg3 : arg3.IsWhole)
    (arg4 : Memref sig .tc .vmem S1x256 .f32) (harg4 : arg4.IsWhole)
    (arg5 : Memref sig .tc .vmem S400x256 .f32) (harg5 : arg5.IsWhole)
    (hc0 : ¬cond1_0 i) (hc4 : cond1_4 i)
    (a : Vec F S400x2048 .f32) (s : Vec F S10240x256 .bf16) (b : Vec F S1x256 .f32) (prev : Vec F S400x256 .f32)
    (E : Set ℕ) (K : PUnit → sProp 𝕄) :
    iprop(owns (c : Thread nD τ) arg2 fullShare a ∗ owns (c : Thread nD τ) arg3 fullShare s ∗ owns (c : Thread nD τ) arg4 fullShare b
        ∗ owns (c : Thread nD τ) arg5 fullShare prev
        ∗ (iprop(owns (c : Thread nD τ) arg2 fullShare a ∗ owns (c : Thread nD τ) arg3 fullShare s ∗ owns (c : Thread nD τ) arg4 fullShare b
            ∗ owns (c : Thread nD τ) arg5 fullShare (accC i a s b prev)) -∗ K ⟨⟩))
      ⊢ wp frame (wpE (defs₀ (F := F)) Variants.none c none) E (cc1__agg_body i arg2 harg2 arg3 harg3 arg4 harg4 arg5 harg5) K := by
  simp only [cc1__agg_body_eq_skeleton]; unfold cc1__agg_body_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4
  obtain rfl := harg5.eq_unread hf5
  sl_exec (disch := first | exact hc0 | exact hc4)
  sl_step
  iapply Hk
  have hz := zeros2
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the last store covers the buffer; its payload's first argument is the earlier store read back, whose own
  -- accumulator is the load of the buffer as found; the bias's load reads `b`
  rw [View.read_writes_eq_canon _ _ _ (fun y => ⟨_, List.mem_cons.mpr (Or.inl rfl), View.mem_set_unit_zero hz inb_S400x256_S400x256_0_0 y⟩)]
  rw [View.canon_cons_unit_zero hz]
  sl_unfold_run_names
  rw [View.readCov_unit_zero _ hz]
  simp only [View.readAt_eq_ld, harg2.read_unread, harg3.read_unread, harg4.read_unread, harg5.read_unread,
    View.ld_unit_zero (S := S400x2048) hz, View.ld_unit_zero (S := S400x256) hz, View.ld_unit_zero (S := S1x256) hz]
  rfl

/-! ## What lies past the matrix does not matter

The adjacency's buffer arrives holding its block's part inside the matrix and anything `d` past it; the data name it with
zeros there.  The chunk's payload masks exactly those columns, so the two give one value. -/

-- the TensorCore's buffer contents when the region is entered
variable (V : (c : Dev nD) → (b : Ref sig .tc) → Buf (Elt F) ((c : Thread nD τ).loc b))

/-- Chunk 0's value does not depend on the filler, -/
theorem accA_fill (i : grid1.Coords) (d d' : S400x2048.Idx → Elt F .f32) (g : (win1_0.xblock i).Idx → Elt F .f32)
    (s : Vec F S10240x256 .bf16) : accA i (win1_0.fill i d g) s = accA i (win1_0.fill i d' g) s :=
  k1_pay2_fill i d d' g _ _
/-- nor chunks 1, 2, 3's, -/
theorem accB_fill (i : grid1.Coords) (d d' : S400x2048.Idx → Elt F .f32) (g : (win1_0.xblock i).Idx → Elt F .f32)
    (s : Vec F S10240x256 .bf16) (prev : Vec F S400x256 .f32) :
    accB i (win1_0.fill i d g) s prev = accB i (win1_0.fill i d' g) s prev :=
  k1_pay2_fill i d d' g _ _
/-- nor chunk 4's (the bias and the clamp act on the chunk's sum). -/
theorem accC_fill (i : grid1.Coords) (d d' : S400x2048.Idx → Elt F .f32) (g : (win1_0.xblock i).Idx → Elt F .f32)
    (s : Vec F S10240x256 .bf16) (b : Vec F S1x256 .f32) (prev : Vec F S400x256 .f32) :
    accC i (win1_0.fill i d g) s b prev = accC i (win1_0.fill i d' g) s b prev :=
  congrArg (fun x => k1_pay3 x b) (k1_pay2_fill i d d' g _ _)

/-! ## The body obligation, at a generic point -/

/-- Each window's current staging buffer at point `t`, and that it is a whole buffer. -/
abbrev ms1_0 (t : Fin cfg1.N) : Memref sig .tc .vmem S400x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10240x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S400x256 .f32 := win1_3.stage (cfg1.slots t 3)
abbrev hs1_3 (t : Fin cfg1.N) : (ms1_3 t).IsWhole := hstage1_3 ((cfg1.slots t 3).cast nbuf1_3)

/-- What the body is called with at point `t`: the invariant, what the core owes, each window's buffer at what it then
    holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- What it returns: the same at the next position, the adjacency's buffer stated on its part inside the matrix only
    (past it, anything), the other three at what the data say the body leaves. -/
def bodyPost1 (c : Dev nD) (t : Fin cfg1.N) : sProp 𝕄 :=
  iprop((dat1 V c).Φ t.succ ∗ (dat1 V c).owesAt () t.succ
    ∗ (∃ d, owns (c : Thread nD τ) (ms1_0 t) fullShare
        (win1_0.fill (grid1.coords t) d (win1_0.cut (grid1.coords t) ((dat1 V c).after 0 t))))
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 800000 in
/-- The body at any point.  The adjacency's buffer holds its block filled out with some `d`, the support's and the
    bias's their arrays; the point's position modulo 5 says which chunk it is.  At chunk 0 the result's buffer holds
    anything and the body leaves `accA`; at a later chunk it holds what the point before left and the body leaves
    `accB`, at chunk 4 `accC`, of the adjacency's buffer as it arrived — which is the same as of the block filled out
    with zeros (`accA_fill`, `accB_fill`, `accC_fill`), the data's value.  The adjacency's buffer is handed back as it came:
    on the part inside the matrix it is the block.  The invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V]
  rw [show (dat1 V c).Φ t.succ = (dat1 V c).Φ t.castSucc from rfl,
    show (dat1 V c).owesAt () t.succ = (dat1 V c).owesAt () t.castSucc from rfl,
    after1_0, after1_1, after1_2, after1_3]
  have hcut : win1_0.cut (grid1.coords t) (ablk V c t) = iblk1 V c 0 t := win1_0.cut_fill _ _ _
  rw [hcut]
  have hN : t.val < 125 := lt_of_lt_of_eq t.isLt (show cfg1.N = 125 from N_1)
  by_cases h0 : t.val % 5 = 0
  · rw [outAt1_A V c t h0]
    simp only [before1_3_A V c t h0]
    iintro ⟨HΦ, Ho, ⟨%d0, H0⟩, ⟨%d1, H1⟩, ⟨%d2, H2⟩, ⟨%d3, H3⟩⟩
    iapply (runA c (grid1.coords t) (ms1_0 t) (hs1_0 t) (ms1_1 t) (hs1_1 t) (ms1_2 t) (hs1_2 t) (ms1_3 t) (hs1_3 t)
      ((hcond1_0 t).mpr h0) (fun h => by have := (hcond1_4 t).mp h; omega)
      (win1_0.fill (grid1.coords t) d0 (iblk1 V c 0 t)) (iblk1 V c 1 t) (iblk1 V c 2 t) Set.univ _)
    isplitl [H0]; · iexact H0
    isplitl [H1]; · iexact H1
    isplitl [H2]; · iexact H2
    isplitl [H3]; · iexists d3; iexact H3
    iintro ⟨H0, H1, H2, H3⟩
    isplitl [HΦ]; · iexact HΦ
    isplitl [Ho]; · iexact Ho
    isplitl [H0]; · iexists d0; iexact H0
    isplitl [H1]; · iexact H1
    isplitl [H2]; · iexact H2
    rw [show accA (grid1.coords t) (ablk V c t) (iblk1 V c 1 t)
        = accA (grid1.coords t) (win1_0.fill (grid1.coords t) d0 (iblk1 V c 0 t)) (iblk1 V c 1 t) from
      accA_fill (grid1.coords t) _ d0 (iblk1 V c 0 t) (iblk1 V c 1 t)]
    iexact H3
  · simp only [before1_3_B V c t h0]
    by_cases h4 : t.val % 5 = 4
    · rw [outAt1_C V c t h4]
      iintro ⟨HΦ, Ho, ⟨%d0, H0⟩, ⟨%d1, H1⟩, ⟨%d2, H2⟩, ⟨%d3, H3⟩⟩
      iapply (runC c (grid1.coords t) (ms1_0 t) (hs1_0 t) (ms1_1 t) (hs1_1 t) (ms1_2 t) (hs1_2 t) (ms1_3 t) (hs1_3 t)
        (fun h => h0 ((hcond1_0 t).mp h)) ((hcond1_4 t).mpr h4)
        (win1_0.fill (grid1.coords t) d0 (iblk1 V c 0 t)) (iblk1 V c 1 t) (iblk1 V c 2 t)
        (outAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexists d0; iexact H0
      isplitl [H1]; · iexact H1
      isplitl [H2]; · iexact H2
      rw [show accC (grid1.coords t) (ablk V c t) (iblk1 V c 1 t) (iblk1 V c 2 t) (outAt1 V c (t.val - 1) (Nat.lt_of_le_of_lt (Nat.sub_le _ _) t.isLt))
          = accC (grid1.coords t) (win1_0.fill (grid1.coords t) d0 (iblk1 V c 0 t)) (iblk1 V c 1 t) (iblk1 V c 2 t) (outAt1 V c (t.val - 1) (Nat.lt_of_le_of_lt (Nat.sub_le _ _) t.isLt)) from
        accC_fill (grid1.coords t) _ d0 (iblk1 V c 0 t) (iblk1 V c 1 t) (iblk1 V c 2 t) _]
      iexact H3
    · rw [outAt1_B V c t h0 h4]
      iintro ⟨HΦ, Ho, ⟨%d0, H0⟩, ⟨%d1, H1⟩, ⟨%d2, H2⟩, ⟨%d3, H3⟩⟩
      iapply (runB c (grid1.coords t) (ms1_0 t) (hs1_0 t) (ms1_1 t) (hs1_1 t) (ms1_2 t) (hs1_2 t) (ms1_3 t) (hs1_3 t)
        (fun h => h0 ((hcond1_0 t).mp h)) (fun h => h4 ((hcond1_4 t).mp h))
        (win1_0.fill (grid1.coords t) d0 (iblk1 V c 0 t)) (iblk1 V c 1 t) (iblk1 V c 2 t)
        (outAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexists d0; iexact H0
      isplitl [H1]; · iexact H1
      isplitl [H2]; · iexact H2
      rw [show accB (grid1.coords t) (ablk V c t) (iblk1 V c 1 t) (outAt1 V c (t.val - 1) (Nat.lt_of_le_of_lt (Nat.sub_le _ _) t.isLt))
          = accB (grid1.coords t) (win1_0.fill (grid1.coords t) d0 (iblk1 V c 0 t)) (iblk1 V c 1 t) (outAt1 V c (t.val - 1) (Nat.lt_of_le_of_lt (Nat.sub_le _ _) t.isLt)) from
        accB_fill (grid1.coords t) _ d0 (iblk1 V c 0 t) (iblk1 V c 1 t) _]
      iexact H3

/-- The library's body obligation for region 1 (the adjacency's window stated on its part inside the matrix only). -/
theorem body_obligation1 (c : Dev nD) : BodyObligationLoose (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of @main: a host stretch (the padding of `x`), region 0, a host stretch (the bias as a row), region 1.
  The buffers' contents at each boundary are a fold from the launch memory: a stretch's operations applied, a
  region's arrays at what its write-backs leave.  `run_main`: every weakly fair execution terminates, the result
  array ends at what region 1's write-backs leave, and the four arguments end as launched.
-/
import proofs.«163589_g31456340476406_cont_sun_m_339_6_alg».proof.Proof.KernelIdeal.Body0
import proofs.«163589_g31456340476406_cont_sun_m_339_6_alg».proof.Proof.KernelIdeal.Body1
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b

/-! ## The fold, read buffer by buffer

A region's exit contents are its entry contents with the windows' arrays replaced: at a window's array they are what
the write-backs leave, at any other buffer they are the entry contents. -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! A host stretch changes only the buffers its operations write: the first stretch its constant, the converted
    constant and the padded `x`; the second the bias row. -/

/-- The buffers the first stretch writes. -/
abbrev wr0 : List (Ref sig .tc) := [main_call0_c, main_call0_call0_v0, main_call0_v0]
/-- The buffer the second stretch writes. -/
abbrev wr1 : List (Ref sig .tc) := [main_call0_v2]

theorem hostOps0_wr : (hostOps0 : List (HloOp τ sig (Elt F))).Forall fun op =>
    op.writes ⊆ (wr0.map (Proc.devRef (τ := τ) .tc)).toFinset := by
  refine ⟨?_, ?_, ?_⟩ <;>
    exact Finset.singleton_subset_iff.mpr (List.mem_toFinset.mpr (List.mem_map_of_mem (by decide)))
theorem hostOps1_wr : (hostOps1 : List (HloOp τ sig (Elt F))).Forall fun op =>
    op.writes ⊆ (wr1.map (Proc.devRef (τ := τ) .tc)).toFinset := by
  exact Finset.singleton_subset_iff.mpr (List.mem_toFinset.mpr (List.mem_map_of_mem (by decide)))

/-- A buffer the first stretch does not write is entered by region 0 as launched. -/
theorem W1_keep (c : Dev nD) (r : Ref sig .tc) (h : r ∉ wr0) :
    W1 m c (Proc.devRef .tc r) = m ((c : Thread nD τ).loc r) :=
  (StableHlo.after_of_writes_sub hostOps0 _ hostOps0_wr h).trans rfl
/-- A buffer the second stretch does not write is entered by region 1 as region 0 left it. -/
theorem W3_keep (c : Dev nD) (r : Ref sig .tc) (h : r ∉ wr1) :
    W3 m c (Proc.devRef .tc r) = W2 m c (Proc.devRef .tc r) :=
  StableHlo.after_of_writes_sub hostOps1 _ hostOps1_wr h

/-! ## What the regions are entered from, array by array -/

/-- Region 0 finds `W` as launched, -/
theorem V1_main_arg2 (c : Dev nD) : V1 m c main_arg2 = m ((c : Thread nD τ).loc main_arg2) := by
  exact W1_keep m c main_arg2 (by decide)
/-- and the padded `x`: the launch's `x` with 240 rows of the converted integer zero appended. -/
theorem V1_main_call0_v0 (c : Dev nD) :
    (V1 m c main_call0_v0 : Vec F S10240x256 .f32)
      = pad S10240x256 ![0, 0] ![240, 0] ![0, 0] (m ((c : Thread nD τ).loc main_arg0)) (sitofp .f32 (constantI S_ 32 0#32))
          pads_S10000x256_S10240x256_02400_000 h_S_ := by
  show StableHlo.after hostOps0 _ (Proc.devRef .tc main_call0_v0) = _
  after_results
  rfl
/-- Region 1 finds the adjacency as launched, -/
theorem V3_main_arg1 (c : Dev nD) : V3 m c main_arg1 = m ((c : Thread nD τ).loc main_arg1) := by
  exact (W3_keep m c main_arg1 (by decide)).trans
    ((W2_of_ne m c main_arg1 (by decide)).trans (W1_keep m c main_arg1 (by decide)))
/-- the support as region 0's write-backs left it, -/
theorem V3_main_call0_v1 (c : Dev nD) : V3 m c main_call0_v1 = (dat0 (V1 m) c).arrAt 2 cfg0.N := by
  exact (W3_keep m c main_call0_v1 (by decide)).trans (W2_arr m c 2)
/-- and the bias as a row. -/
theorem V3_main_call0_v2 (c : Dev nD) :
    (V3 m c main_call0_v2 : Vec F S1x256 .f32) = shapeCast S1x256 (m ((c : Thread nD τ).loc main_arg3)) shapeCasts_S256_S1x256 := by
  have hb : W2 m c (Proc.devRef .tc main_arg3) = m ((c : Thread nD τ).loc main_arg3) :=
    (W2_of_ne m c main_arg3 (by decide)).trans (W1_keep m c main_arg3 (by decide))
  show StableHlo.after hostOps1 _ (Proc.devRef .tc main_call0_v2) = _
  after_results
  rw [hb]
  rfl

/-! ### The arguments end as launched

No host operation writes an argument, and a region only reads one (through an input window, whose array the
write-backs leave as found) or passes it by. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_keep m c main_arg0 (by decide)
    _ = W1 m c (Proc.devRef .tc main_arg0) := W2_of_ne m c main_arg0 (by decide)
    _ = m ((c : Thread nD τ).loc main_arg0) := W1_keep m c main_arg0 (by decide)
theorem W4_main_arg1 (c : Dev nD) : W4 m c (Proc.devRef .tc main_arg1) = m ((c : Thread nD τ).loc main_arg1) :=
  calc W4 m c (Proc.devRef .tc main_arg1)
    _ = (dat1 (V3 m) c).arrAt 0 cfg1.N := W4_arr m c 0
    _ = V3 m c main_arg1 := ((dat1 (V3 m) c).arrAt_in 0 rfl _).trans (A_eq1 (V3 m) c 0)
    _ = m ((c : Thread nD τ).loc main_arg1) := V3_main_arg1 m c
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_keep m c main_arg2 (by decide)
    _ = (dat0 (V1 m) c).arrAt 1 cfg0.N := W2_arr m c 1
    _ = V1 m c main_arg2 := ((dat0 (V1 m) c).arrAt_in 1 rfl _).trans (A_eq0 (V1 m) c 1)
    _ = m ((c : Thread nD τ).loc main_arg2) := V1_main_arg2 m c
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_of_ne m c main_arg3 (by decide)
    _ = m ((c : Thread nD τ).loc main_arg3) := W1_keep m c main_arg3 (by decide)

/-! ## The proof data family and the thread state -/

/-- No pipeline has a prefetched table. -/
abbrev adm : (p : Fin 2) → (pcfgs (F := F) p).Adm := fun p => (cfgs p).toPCfg_adm
/-- Each pipeline's proof data, at the contents its region is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and the
    core owing nothing. -/
abbrev R (c : Dev nD) : sProp 𝕄 := iprop((∃ r, prngReg c r) ∗ ∃ W, owes (c : Thread nD τ) (0 : CellTallies nD τ sig Unit) W)
/-- A host stretch as a segment over the unscoped buffers from contents `W`, `R` riding along; it ends at the
    stretch's operations applied to `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at region 1's exit contents, the generator
    register at some state. -/
abbrev Tₙ (c : Dev nD) : sProp 𝕄 := iprop(StableHlo.held (c : Thread nD τ) (Pipeline.ucRefs τ sig) (W4 m c) ∗ ∃ r, prngReg c r)

/-! ## The regions as segments

A region is entered from every unscoped buffer at its entry contents: its windows' arrays are split out of them and,
at the exit, put back at what the write-backs leave; the generator register goes into the pipeline's invariant and
comes back; nothing is owed; the kernel has no semaphore of its own. -/

set_option backward.isDefEq.respectTransparency.types false in
/-- Region 0: entered at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W3`, left at `W4` (the last thread state, beside the core owing nothing). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- @main's four segments in order: a host segment per stretch from its boundary's contents, a region per call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- Every weakly fair execution of @main from `m` with zero counters terminates; the result array ends at what
    region 1's write-backs leave and the arguments end as launched. -/
theorem run_main : θ_run defs (onTc (τ := τ) (main (F := F))) ⟨m, fun _ => 0, ρ⟩ (fun r => ∀ c : Dev nD,
      r.2.mem ((c.tc : Thread nD τ).loc main_v0) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

end Cert.KernelIdeal.Hand

end
-- ==== Proof.Spec.lean ====
/-
  The mathematics of the graph convolution, index by index over the extended reals.

  `G x adj W b` is the reference's value: row `i`, column `q` holds
  `max (Σ_{j<10000} adj[i,j] · (Σ_{c<256} x[j,c] · W[c,q]) + b[q]) 0`.
  The kernel reaches the same number in two steps.  First the SUPPORT `supOf`: the product of `x`, padded with 240
  zero rows to 10240 rows (`xpadOf`), with `W`.  Then the AGGREGATION `outOf`: the adjacency's columns taken in five
  chunks of 2048, a column past the 10000th replaced by zero (the last chunk runs 240 columns past the matrix),
  each chunk's product with the matching 2048 rows of the support added up, the bias added, the result clamped at zero.
  `kernel_eq_G` joins the two: the 240 extra terms are `0 · s = 0`, and five chunks of 2048 are the first 10240
  naturals, of which the first 10000 carry the adjacency's columns; only commutativity and associativity of `+` on
  the extended reals are used, so no finiteness of the inputs is needed.
-/
import Idealize.ShloMosaic.PureOps.Ideal
import Idealize.ShloMosaic.Lib.ValueIdx

noncomputable section

namespace Cert.Spec

open Idealize.ShloMosaic Idealize.ShloMosaic.ValueIdx
open scoped BigOperators

/-- The shapes of the arrays, literally. -/
abbrev SX : Shape := ⟨2, ![10000, 256]⟩
abbrev SXP : Shape := ⟨2, ![10240, 256]⟩
abbrev SADJ : Shape := ⟨2, ![10000, 10000]⟩
abbrev SW : Shape := ⟨2, ![256, 256]⟩
abbrev SB : Shape := ⟨1, ![256]⟩
abbrev SB2 : Shape := ⟨2, ![1, 256]⟩

/-- `x` with 240 zero rows appended. -/
def xpadOf (x : SX.Idx → EReal) : SXP.Idx → EReal :=
  fun j => if h : (j 0).val < 10000 then x (ix2 (⟨(j 0).val, h⟩ : Fin 10000) (j 1 : Fin 256)) else 0

/-- The support: a 10240-row matrix times `W`. -/
def supOf (xp : SXP.Idx → EReal) (W : SW.Idx → EReal) : SXP.Idx → EReal :=
  fun j => ∑ c : Fin 256, xp (ix2 (j 0 : Fin 10240) c) * W (ix2 c (j 1 : Fin 256))

/-- Column `2048 k + jj` of the adjacency's row `r`, zero past the 10000th column. -/
def adjMasked (adj : SADJ.Idx → EReal) (r : Fin 10000) (k : Fin 5) (jj : Fin 2048) : EReal :=
  if h : 2048 * k.val + jj.val < 10000 then adj (ix2 r (⟨2048 * k.val + jj.val, h⟩ : Fin 10000)) else 0

/-- Chunk `k`'s contribution to entry `(r, q)`: the masked adjacency chunk times the support's rows `2048 k …`. -/
def chunk (adj : SADJ.Idx → EReal) (sup : SXP.Idx → EReal) (r : Fin 10000) (q : Fin 256) (k : Fin 5) : EReal :=
  ∑ jj : Fin 2048, adjMasked adj r k jj * sup (ix2 (⟨2048 * k.val + jj.val, by have := k.isLt; have := jj.isLt; omega⟩ : Fin 10240) q)

/-- The aggregation: five chunks summed, the bias row added, clamped at zero. -/
def outOf (adj : SADJ.Idx → EReal) (sup : SXP.Idx → EReal) (b2 : SB2.Idx → EReal) : SX.Idx → EReal :=
  fun i => max ((∑ k : Fin 5, chunk adj sup (i 0) (i 1) k) + b2 (ix2 (0 : Fin 1) (i 1 : Fin 256))) 0

/-- The reference's value. -/
def G (x : SX.Idx → EReal) (adj : SADJ.Idx → EReal) (W : SW.Idx → EReal) (b : SB.Idx → EReal) : SX.Idx → EReal :=
  fun i => max ((∑ j : Fin 10000, adj (ix2 (i 0 : Fin 10000) j) * ∑ c : Fin 256, x (ix2 j c) * W (ix2 c (i 1 : Fin 256)))
    + b (ix1 (i 1 : Fin 256))) 0

/-- Chunks of equal length laid end to end: a sum over `m` chunks of `n` terms, term `jj` of chunk `k` being term
    `jj + n · k` of the whole, is the sum over all `m · n` terms (the pairs `(k, jj)` are in bijection with `Fin (m · n)`,
    and a finite sum in a commutative monoid does not depend on the order). -/
theorem sum_chunks_eq {M : Type*} [AddCommMonoid M] (m n : ℕ) (g : Fin (m * n) → M) :
    ∑ k : Fin m, ∑ jj : Fin n, g (finProdFinEquiv (k, jj)) = ∑ j : Fin (m * n), g j := by
  rw [← Fintype.sum_prod_type' (f := fun k jj => g (finProdFinEquiv (k, jj)))]
  exact Equiv.sum_comp finProdFinEquiv g

/-- A sum whose terms past the `a`-th all vanish is the sum of its first `a` terms. -/
theorem sum_add_tail_zero {M : Type*} [AddCommMonoid M] (a t : ℕ) (g : Fin (a + t) → M)
    (h0 : ∀ i : Fin t, g (Fin.natAdd a i) = 0) :
    ∑ j : Fin (a + t), g j = ∑ i : Fin a, g (Fin.castAdd t i) := by
  rw [Fin.sum_univ_add, Finset.sum_eq_zero (fun i _ => h0 i), add_zero]

/-- A row of the padded `x` below the 10000th is the row of `x`. -/
theorem xpadOf_lt (x : SX.Idx → EReal) (j : Fin 10240) (c : Fin 256) (h : j.val < 10000) :
    xpadOf x (ix2 j c) = x (ix2 (⟨j.val, h⟩ : Fin 10000) c) := by
  show (if h' : j.val < 10000 then x (ix2 (⟨j.val, h'⟩ : Fin 10000) c) else 0) = _
  exact dif_pos h

/-- The term of column `j < 10240` in entry `(r, q)`: the adjacency's entry (zero past the 10000th column) times the
    support's entry. -/
def colTerm (adj : SADJ.Idx → EReal) (sup : SXP.Idx → EReal) (r : Fin 10000) (q : Fin 256) (j : Fin 10240) : EReal :=
  (if h : j.val < 10000 then adj (ix2 r (⟨j.val, h⟩ : Fin 10000)) else 0) * sup (ix2 j q)

/-- Term `jj` of chunk `k` is the term of column `2048 k + jj`. -/
theorem chunk_colTerm (adj : SADJ.Idx → EReal) (sup : SXP.Idx → EReal) (r : Fin 10000) (q : Fin 256) (k : Fin 5)
    (jj : Fin 2048) :
    adjMasked adj r k jj * sup (ix2 (⟨2048 * k.val + jj.val, by have := k.isLt; have := jj.isLt; omega⟩ : Fin 10240) q)
      = colTerm adj sup r q (finProdFinEquiv (k, jj)) := by
  have he : (⟨2048 * k.val + jj.val, by have := k.isLt; have := jj.isLt; omega⟩ : Fin 10240)
      = (finProdFinEquiv (k, jj) : Fin (5 * 2048)) := by
    apply Fin.ext
    show 2048 * k.val + jj.val = jj.val + 2048 * k.val
    omega
  rw [← he]
  rfl

/-- Five chunks of 2048 terms are the 10240 terms. -/
theorem sum_chunks_colTerm (adj : SADJ.Idx → EReal) (sup : SXP.Idx → EReal) (r : Fin 10000) (q : Fin 256) :
    ∑ k : Fin 5, chunk adj sup r q k = ∑ j : Fin 10240, colTerm adj sup r q j := by
  have h := sum_chunks_eq 5 2048 (colTerm adj sup r q)
  refine Eq.trans ?_ h
  refine Finset.sum_congr rfl (fun k _ => ?_)
  unfold chunk
  exact Finset.sum_congr rfl (fun jj _ => chunk_colTerm adj sup r q k jj)

/-- A term of a column below the 10000th is the reference's term. -/
theorem colTerm_lt (x : SX.Idx → EReal) (adj : SADJ.Idx → EReal) (W : SW.Idx → EReal) (r : Fin 10000) (q : Fin 256)
    (i : Fin 10000) :
    colTerm adj (supOf (xpadOf x) W) r q (Fin.castAdd 240 i)
      = adj (ix2 r i) * ∑ c : Fin 256, x (ix2 i c) * W (ix2 c q) := by
  have hi : (Fin.castAdd 240 i).val < 10000 := i.isLt
  unfold colTerm
  rw [dif_pos hi]
  show adj (ix2 r i) * (∑ c : Fin 256, xpadOf x (ix2 (Fin.castAdd 240 i) c) * W (ix2 c q)) = _
  congr 1
  refine Finset.sum_congr rfl (fun c _ => ?_)
  rw [xpadOf_lt x (Fin.castAdd 240 i) c hi]
  rfl

/-- A term of a column past the 10000th is `0 · s = 0`. -/
theorem colTerm_ge (adj : SADJ.Idx → EReal) (sup : SXP.Idx → EReal) (r : Fin 10000) (q : Fin 256) (i : Fin 240) :
    colTerm adj sup r q (Fin.natAdd 10000 i) = 0 := by
  have hi : ¬ (Fin.natAdd 10000 i).val < 10000 := by
    show ¬ (10000 + i.val < 10000)
    omega
  unfold colTerm
  rw [dif_neg hi, zero_mul]

/-- The kernel's two steps compute the reference's value. -/
theorem kernel_eq_G (x : SX.Idx → EReal) (adj : SADJ.Idx → EReal) (W : SW.Idx → EReal) (b : SB.Idx → EReal) :
    outOf adj (supOf (xpadOf x) W) (fun i => b (ix1 (i 1 : Fin 256))) = G x adj W b := by
  funext i
  obtain ⟨r, q, rfl⟩ : ∃ (r : Fin 10000) (q : Fin 256), i = ix2 r q := ⟨i 0, i 1, eq_ix2 i⟩
  show max ((∑ k : Fin 5, chunk adj (supOf (xpadOf x) W) r q k) + b (ix1 q)) 0
    = max ((∑ j : Fin 10000, adj (ix2 r j) * ∑ c : Fin 256, x (ix2 j c) * W (ix2 c q)) + b (ix1 q)) 0
  rw [sum_chunks_colTerm, sum_add_tail_zero 10000 240 (colTerm adj (supOf (xpadOf x) W) r q)
    (fun i => colTerm_ge adj (supOf (xpadOf x) W) r q i)]
  rw [Finset.sum_congr rfl (fun i _ => colTerm_lt x adj W r q i)]

end Cert.Spec

end
-- ==== Proof.KernelIdeal.Value0.lean ====
/-
  Region 0's result array after its five write-backs, over the extended reals: row `j`, column `q` holds the
  product of the padded `x`'s row `j` with `W`'s column `q` — point `t` writes rows `2048 t … 2048 t + 2047`, the five
  blocks tile the 10240 rows, and a block's entry is the matrix unit's sum into a zero accumulator, the rounding to
  the narrow format being the identity on the extended reals.
-/
import proofs.«163589_g31456340476406_cont_sun_m_339_6_alg».proof.Proof.KernelIdeal.Data
import proofs.«163589_g31456340476406_cont_sun_m_339_6_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## The matrix unit's product at an index

  The dimension record contracts the left operand's axis 1 with the right operand's axis 0 and keeps the left's axis 0
  and the right's axis 1; the four lemmas read the operand indices off it, axis by axis. -/

theorem lhs_sup_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_sup_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_sup_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_sup_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The product into the zero accumulator, entry `(p, q)`: row `p` of the left operand against column `q` of the right. -/
theorem matmul_sup_apply (x0 : FVec Ideal S2048x256 .f32) (x1 : FVec Ideal S256x256 .f32) (p : Fin 2048) (q : Fin 256) :
    matmul (F := Ideal) dot_S2048x256_S256x256_S2048x256_1_0_0_1_n_n none x0 x1 (constant (F := Ideal) S2048x256 .f32 0x00000000#32) (ix2 p q)
      = ∑ k : Fin 256, x0 (ix2 p k) * x1 (ix2 k q) := by
  refine (Ideal.matmul_constant_zero_apply dot_S2048x256_S256x256_S2048x256_1_0_0_1_n_n none x0 x1 (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_sup_0 _ _
    | ⟨1, _⟩ => exact (lhs_sup_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_sup_0 _ _).trans hk
    | ⟨1, _⟩ => exact rhs_sup_1 _ _)
  rw [el, er]

/-- What the body stores, entry `(p, q)`: the shape cast to the same shape and the rounding to the narrow format are
    identities on the extended reals, so it is the product's entry. -/
theorem sup0_apply (x0 : Vec Ideal S2048x256 .f32) (x1 : Vec Ideal S256x256 .f32) (p : Fin 2048) (q : Fin 256) :
    (sup0 (F := Ideal) x0 x1 : S2048x256.Idx → EReal) (ix2 p q) = ∑ k : Fin 256, x0 (ix2 p k) * x1 (ix2 k q) := by
  unfold sup0 k0_pay1
  rw [shapeCast_self]
  exact matmul_sup_apply x0 x1 p q

/-! ## The blocks of the five points

  At point `t` the padded `x`'s window and the result's window sit at block row `t` (rows `2048 t …`), block column 0;
  `W`'s window is all of `W`.  A block's coordinate in its array is the block index times the block's size plus the
  coordinate inside the block. -/

/-- The printed index maps, decided over the five points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The padded `x`'s block at point `t`, entry `y`, is the array's entry at row `2048 t + y 0`, column `y 1`. -/
theorem xblk_apply (c : Dev nD) (t : Fin cfg0.N) (y : S2048x256.Idx) (j : S10240x256.Idx)
    (h0 : (j 0).val = 2048 * t.val + (y 0).val) (h1 : (j 1).val = (y 1).val) :
    (iblk0 (F := Ideal) V c 0 t : Vec Ideal S2048x256 .f32) y = (V c main_call0_v0 : S10240x256.Idx → EReal) j := by
  obtain ⟨e0, e1, -⟩ := idx_facts0 t
  unfold iblk0
  rw [View.read_apply]
  show V c main_call0_v0 _ = V c main_call0_v0 j
  refine congrArg _ ?_
  funext a; apply Fin.ext
  match a with
  | ⟨0, _⟩ => show win0_0.index t (0 : Fin 2) * 2048 + 1 * (y 0).val = (j 0).val; rw [e0, h0]; omega
  | ⟨1, _⟩ => show win0_0.index t (1 : Fin 2) * 256 + 1 * (y 1).val = (j 1).val; rw [e1, h1]; omega

/-- `W`'s block at every point is `W`. -/
theorem wblk_apply (c : Dev nD) (t : Fin cfg0.N) (y : S256x256.Idx) :
    (iblk0 (F := Ideal) V c 1 t : Vec Ideal S256x256 .f32) y = (V c main_arg2 : S256x256.Idx → EReal) y := by
  obtain ⟨-, -, e2, e3, -⟩ := idx_facts0 t
  unfold iblk0
  rw [View.read_apply]
  show V c main_arg2 _ = V c main_arg2 y
  refine congrArg _ ?_
  funext a; apply Fin.ext
  match a with
  | ⟨0, _⟩ => show win0_1.index t (0 : Fin 2) * 256 + 1 * (y 0).val = (y 0).val; rw [e2]; omega
  | ⟨1, _⟩ => show win0_1.index t (1 : Fin 2) * 256 + 1 * (y 1).val = (y 1).val; rw [e3]; omega

/-- The product of a block of 2048 rows of `X`, starting at row `2048 n`, with `W` is that block of `supOf X W`:
    entry `y` of the product is entry `j` of `supOf X W` when `j` is `y` moved down `2048 n` rows. -/
theorem sup0_blk (X : S10240x256.Idx → EReal) (Wm : S256x256.Idx → EReal)
    (x0 : Vec Ideal S2048x256 .f32) (x1 : Vec Ideal S256x256 .f32) (n : ℕ)
    (hx0 : ∀ (y : S2048x256.Idx) (j : S10240x256.Idx), (j 0).val = 2048 * n + (y 0).val → (j 1).val = (y 1).val → x0 y = X j)
    (hx1 : ∀ y : S256x256.Idx, x1 y = Wm y)
    (y : S2048x256.Idx) (j : S10240x256.Idx) (h0 : (j 0).val = 2048 * n + (y 0).val) (h1 : (j 1).val = (y 1).val) :
    (sup0 (F := Ideal) x0 x1 : S2048x256.Idx → EReal) y = Cert.Spec.supOf X Wm j := by
  obtain ⟨p, q, rfl⟩ : ∃ (p : Fin 2048) (q : Fin 256), y = ix2 p q := ⟨y 0, y 1, eq_ix2 y⟩
  rw [sup0_apply]
  unfold Cert.Spec.supOf
  have hq : (j 1 : Fin 256) = q := Fin.ext h1
  rw [hq]
  refine Finset.sum_congr rfl fun k _ => ?_
  rw [hx0 (ix2 p k) (ix2 (j 0 : Fin 10240) k) h0 rfl, hx1]

/-- What point `t` writes back is block `t` of `supOf` of the padded `x` and `W`. -/
theorem flushed0_eq (c : Dev nD) (t : Fin cfg0.N) :
    (dat0 (F := Ideal) V c).flushed 2 t
      = ((cfg0.win 2).blk t).view.read (Elt Ideal) (Cert.Spec.supOf (V c main_call0_v0) (V c main_arg2)) := by
  show (cfg0.win 2).cut (cfg0.grid.coords t) ((dat0 (F := Ideal) V c).after 2 t) = _
  rw [after0_2]
  obtain ⟨-, -, -, -, e4, e5⟩ := idx_facts0 t
  funext y
  rw [View.read_apply]
  refine sup0_blk (V c main_call0_v0) (V c main_arg2) (iblk0 (F := Ideal) V c 0 t) (iblk0 (F := Ideal) V c 1 t) t.val
    (fun y j h0 h1 => xblk_apply V c t y j h0 h1) (fun y => wblk_apply V c t y) y (((cfg0.win 2).blk t).view.emb y) ?_ ?_
  · show win0_2.index t (0 : Fin 2) * 2048 + 1 * (y 0).val = 2048 * t.val + (y 0).val
    rw [e4]; omega
  · show win0_2.index t (1 : Fin 2) * 256 + 1 * (y 1).val = (y 1).val
    rw [e5]; omega

/-! ## The five blocks tile the 10240 rows -/

/-- An index of the array is in point `t`'s block iff each coordinate is in the block's range on its axis. -/
theorem mem_blk0 (t : Fin cfg0.N) (i : S10240x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_call0_v1).slice (win0_2.rect t)).set ↔ _
  rw [View.set_slice_whole, Rect.mem_set_unit]
  exact Iff.rfl

/-- Row `r` lies in the block of point `r / 2048`. -/
theorem cover0 (i : S10240x256.Idx) :
    ∃ t : Fin cfg0.N, (cfg0.win 2).flush t = true ∧ i ∈ ((cfg0.win 2).blk t).view.set := by
  have hi0 : (i 0).val < 10240 := (i 0).isLt
  have hi1 : (i 1).val < 256 := (i 1).isLt
  have hN : cfg0.N = 5 := N_0
  obtain ⟨t, ht⟩ : ∃ t : Fin cfg0.N, t.val = (i 0).val / 2048 := ⟨⟨(i 0).val / 2048, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 256 ≤ (i 1).val ∧ (i 1).val < win0_2.index t (1 : Fin 2) * 256 + 256
    rw [e5]; omega

/-- The support array after region 0 is `supOf` of the padded `x` and `W` the region found. -/
theorem sup_final (c : Dev nD) :
    ((dat0 (F := Ideal) V c).arrAt 2 cfg0.N : Cert.Spec.SXP.Idx → EReal)
      = Cert.Spec.supOf (V c main_call0_v0) (V c main_arg2) :=
  (dat0 (F := Ideal) V c).arrAt_eq_of_cover 2 (Cert.Spec.supOf (V c main_call0_v0) (V c main_arg2))
    (fun t _ => flushed0_eq V c t) cover0

end Cert.KernelIdeal.Hand

end
-- ==== Proof.KernelIdeal.Value1.lean ====
/-
  Region 1's result array after its 25 write-backs, over the extended reals.  Within row block `ib` the staging
  buffer after chunk `k` holds the sum of chunks `0 … k` (an induction over the five points of the row block, from
  `outAt1`'s three equations), each chunk the masked adjacency columns times the support's rows; after chunk 4 the
  bias is added and the result clamped at zero, and that is what the write-back puts on rows `400 ib … 400 ib + 399`.
  The 25 blocks tile the 10000 rows.

  Three parts.  (1) The payloads read at an entry: the chunk's product is a sum over the 2048 lanes of the masked
  adjacency lane times the support's entry (the narrowing to the short format is the identity over the extended reals,
  a masked lane is `0`); the reset is `0`; the last step is `max (v + b) 0`.  (2) At point `t` the grid's coordinates
  are `(t / 5, t % 5)`; a lane of the adjacency's staging buffer whose column `2048 (t % 5) + jj` lies inside the matrix
  holds the matrix's entry at row `400 (t / 5) + p` (the lanes past the matrix are exactly the masked ones, so what
  they hold never enters), the loaded rows of the support are rows `2048 (t % 5) …`, and so one point adds one chunk
  term of the specification; the five points of a row block add up in the order `((((0 + c₀) + c₁) + c₂) + c₃) + c₄`.
  (3) Only a row block's last point writes back, and row `r` lies in the block point `5 (r / 400) + 4` writes.
-/
import proofs.«163589_g31456340476406_cont_sun_m_339_6_alg».proof.Proof.KernelIdeal.Data
import proofs.«163589_g31456340476406_cont_sun_m_339_6_alg».proof.Proof.KernelIdeal.Mask
import proofs.«163589_g31456340476406_cont_sun_m_339_6_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-! ## (1) The payloads read at an entry -/

/-- The zero word of the narrow format is the extended real zero. -/
private theorem ofBits_zero_bf16 : Ideal.ofBits .bf16 0x0000#16 = 0 := by simp [Ideal.ofBits, Ideal.ieee]

/-- The reset stores zero everywhere. -/
theorem pay1_apply (p : Fin 400) (q : Fin 256) : k1_pay1 (F := Ideal) (ix2 p q) = 0 := by
  show Ideal.ofBits .f32 0x00000000#32 = 0
  exact Ideal.ofBits_zero_f32

/-- The product's operand indices at output entry `j` and contraction index `k`: the left operand is read at
    `(j 0, k)`, the right one at `(k, j 1)` — axis by axis. -/
private theorem lhs0 (j : S400x256.Idx) (k : dot_S400x2048_S2048x256_S400x256_1_0_0_1_n_n.contr.Idx) :
    (dot_S400x2048_S2048x256_S400x256_1_0_0_1_n_n.lhsIdx j k 0).val = (j 0).val := by
  unfold DotDims.lhsIdx
  rw [dif_neg (show ¬(0 : Fin S400x2048.rank) ∈ dot_S400x2048_S2048x256_S400x256_1_0_0_1_n_n.lhsBatch by decide), dif_pos (show (0 : Fin S400x2048.rank) ∈ dot_S400x2048_S2048x256_S400x256_1_0_0_1_n_n.lhsNonContracting by decide)]
  rfl
private theorem lhs1 (j : S400x256.Idx) (k : dot_S400x2048_S2048x256_S400x256_1_0_0_1_n_n.contr.Idx) :
    (dot_S400x2048_S2048x256_S400x256_1_0_0_1_n_n.lhsIdx j k 1).val = (k ⟨0, by decide⟩).val :=
  dot_S400x2048_S2048x256_S400x256_1_0_0_1_n_n.lhsIdx_val_of_single rfl j k
private theorem rhs0 (j : S400x256.Idx) (k : dot_S400x2048_S2048x256_S400x256_1_0_0_1_n_n.contr.Idx) :
    (dot_S400x2048_S2048x256_S400x256_1_0_0_1_n_n.rhsIdx j k 0).val = (k ⟨0, by decide⟩).val :=
  dot_S400x2048_S2048x256_S400x256_1_0_0_1_n_n.rhsIdx_val_of_single rfl j k
private theorem rhs1 (j : S400x256.Idx) (k : dot_S400x2048_S2048x256_S400x256_1_0_0_1_n_n.contr.Idx) :
    (dot_S400x2048_S2048x256_S400x256_1_0_0_1_n_n.rhsIdx j k 1).val = (j 1).val := by
  unfold DotDims.rhsIdx
  rw [dif_neg (show ¬(1 : Fin S2048x256.rank) ∈ dot_S400x2048_S2048x256_S400x256_1_0_0_1_n_n.rhsBatch by decide), dif_pos (show (1 : Fin S2048x256.rank) ∈ dot_S400x2048_S2048x256_S400x256_1_0_0_1_n_n.rhsNonContracting by decide)]
  rfl

/-- THE CHUNK'S PAYLOAD at entry `(p, q)`: what the buffer held plus the sum over the 2048 lanes of the adjacency lane —
    zero where its column `2048 · i 1 + jj` is not below 10000 — times the support's entry.  The product accumulates into
    a zero splat, its one contraction axis is re-indexed by the lane number, and narrowing is the identity over the
    extended reals. -/
theorem pay2_apply (i : grid1.Coords) (a : Vec Ideal S400x2048 .f32) (s : Vec Ideal S2048x256 .bf16) (prev : Vec Ideal S400x256 .f32)
    (p : Fin 400) (q : Fin 256) :
    k1_pay2 i a s prev (ix2 p q)
      = prev (ix2 p q) + ∑ jj : Fin 2048, (if 2048 * (i 1).val + jj.val < 10000 then a (ix2 p jj) else 0) * s (ix2 jj q) := by
  rw [k1_pay2_eq, addf_apply, shapeCast_self, shapeCast_self]
  refine congrArg (prev (ix2 p q) + ·) ?_
  refine (Ideal.matmul_constant_zero_apply (φ₁ := .bf16) (φ₂ := .bf16) dot_S400x2048_S2048x256_S400x256_1_0_0_1_n_n none _ s (ix2 p q)).trans ?_
  rw [← Equiv.sum_comp (contrEquiv1 dot_S400x2048_S2048x256_S400x256_1_0_0_1_n_n 2048 rfl rfl).symm]
  refine Finset.sum_congr rfl fun jj _ => ?_
  have hk := contrEquiv1_symm_val dot_S400x2048_S2048x256_S400x256_1_0_0_1_n_n 2048 rfl rfl jj
  have el : dot_S400x2048_S2048x256_S400x256_1_0_0_1_n_n.lhsIdx (ix2 p q) ((contrEquiv1 dot_S400x2048_S2048x256_S400x256_1_0_0_1_n_n 2048 rfl rfl).symm jj) = ix2 p jj :=
    funext fun x => Fin.ext (by
      match x with
      | ⟨0, _⟩ => exact lhs0 _ _
      | ⟨1, _⟩ => exact (lhs1 _ _).trans hk)
  have er : dot_S400x2048_S2048x256_S400x256_1_0_0_1_n_n.rhsIdx (ix2 p q) ((contrEquiv1 dot_S400x2048_S2048x256_S400x256_1_0_0_1_n_n 2048 rfl rfl).symm jj) = ix2 jj q :=
    funext fun x => Fin.ext (by
      match x with
      | ⟨0, _⟩ => exact (rhs0 _ _).trans hk
      | ⟨1, _⟩ => exact rhs1 _ _)
  rw [el, er, select_apply]
  by_cases h : 2048 * (i 1).val + jj.val < 10000
  · rw [if_pos h, (colMask_iff i (ix2 p jj)).mpr h, select_one, truncf_apply]
  · rw [if_neg h, eq_zero_of_ne_one (mt (colMask_iff i (ix2 p jj)).mp h), select_zero, broadcast_apply]
    exact congrArg (· * s (ix2 jj q)) ofBits_zero_bf16

/-- THE LAST STEP at entry `(p, q)`: the bias row's entry `q` added, the result clamped at zero. -/
theorem pay3_apply (v : Vec Ideal S400x256 .f32) (b : Vec Ideal S1x256 .f32) (p : Fin 400) (q : Fin 256) :
    k1_pay3 v b (ix2 p q) = max (v (ix2 p q) + b (ix2 (0 : Fin 1) q)) 0 := by
  unfold k1_pay3
  rw [maximumf_apply, addf_apply, shapeCast_self, shapeCast_self, broadcast_apply]
  rw [broadcastTo_apply b broadcasts_S1x256_S400x256 (ix2 p q) (ix2 (0 : Fin 1) q) (fun x => by
    match x with
    | ⟨0, _⟩ => rfl
    | ⟨1, _⟩ => rfl)]
  exact congrArg (max _) Ideal.ofBits_zero_f32

variable (V : (c : Dev nD) → (b : Ref sig .tc) → Buf (Elt Ideal) ((c : Thread nD τ).loc b))

/-! ## (2) One point adds one chunk; the five points of a row block -/

/-- The grid has 25 · 5 points. -/
private theorem N1 : cfg1.N = 125 := by decide

/-- The grid's coordinates at point `t`: row block `t / 5`, chunk `t % 5`. -/
private theorem coords1 : ∀ t : Fin cfg1.N, (grid1.coords t 0).val = t.val / 5 ∧ (grid1.coords t 1).val = t.val % 5 :=
  (by decide +kernel : ∀ t : Fin grid1.N, (grid1.coords t 0).val = t.val / 5 ∧ (grid1.coords t 1).val = t.val % 5)

/-- The windows' block indices at point `t`. -/
private theorem index1 : ∀ t : Fin cfg1.N, win1_0.index t (0 : Fin 2) = t.val / 5 ∧ win1_0.index t (1 : Fin 2) = t.val % 5
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

/-- The support's staging buffer holds the whole support. -/
theorem iblk1_1_apply (c : Dev nD) (t : Fin cfg1.N) (y : S10240x256.Idx) :
    (iblk1 V c 1 t : Vec Ideal S10240x256 .bf16) y = V c main_call0_v1 y := by
  obtain ⟨-, -, e0, e1, -⟩ := index1 t
  show V c main_call0_v1 (((cfg1.win 1).blk t).view.emb y) = _
  refine congrArg (V c main_call0_v1) (funext fun a => Fin.ext ?_)
  match a with
  | ⟨0, _⟩ => show win1_1.index t (0 : Fin 2) * 10240 + 1 * (y 0).val = (y 0).val; rw [e0]; omega
  | ⟨1, _⟩ => show win1_1.index t (1 : Fin 2) * 256 + 1 * (y 1).val = (y 1).val; rw [e1]; omega

/-- The bias's staging buffer holds the whole bias row. -/
theorem iblk1_2_apply (c : Dev nD) (t : Fin cfg1.N) (y : S1x256.Idx) :
    (iblk1 V c 2 t : Vec Ideal S1x256 .f32) y = V c main_call0_v2 y := by
  obtain ⟨-, -, -, -, e0, e1, -⟩ := index1 t
  show V c main_call0_v2 (((cfg1.win 2).blk t).view.emb y) = _
  refine congrArg (V c main_call0_v2) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- A lane of the adjacency's staging buffer whose column lies inside the matrix holds the matrix's entry. -/
theorem ablk_apply (c : Dev nD) (t : Fin cfg1.N) (p : Fin 400) (jj : Fin 2048)
    (h : 2048 * (t.val % 5) + jj.val < 10000) (hr : 400 * (t.val / 5) + p.val < 10000) :
    ablk V c t (ix2 p jj) = V c main_arg1 (ix2 (⟨400 * (t.val / 5) + p.val, hr⟩ : Fin 10000) (⟨2048 * (t.val % 5) + jj.val, h⟩ : Fin 10000)) := by
  obtain ⟨e0, e1, -⟩ := index1 t
  have hm : win1_0.moved (grid1.coords t) (ix2 p jj) = true := (moved_iff_col (grid1.coords t) (ix2 p jj)).mpr (by rw [(coords1 t).2]; exact h)
  unfold ablk Window.fill
  rw [dif_pos hm]
  show V c main_arg1 (((cfg1.win 0).blk t).view.emb _) = _
  refine congrArg (V c main_arg1) (funext fun a => Fin.ext ?_)
  match a with
  | ⟨0, _⟩ => show win1_0.index t (0 : Fin 2) * 400 + 1 * p.val = 400 * (t.val / 5) + p.val; rw [e0]; omega
  | ⟨1, _⟩ => show win1_0.index t (1 : Fin 2) * 2048 + 1 * jj.val = 2048 * (t.val % 5) + jj.val; rw [e1]; omega

/-- The rows of the support the body loads at chunk `k = i 1`: rows `2048 k …` (the offset `2048 · k` does not wrap). -/
theorem sup_ld (i : grid1.Coords) (k : ℕ) (hik : (i 1).val = k) (S : Vec Ideal S10240x256 .bf16) (jj : Fin 2048) (q : Fin 256)
    (h : 2048 * k + jj.val < 10240) :
    View.ld S (supRect i) (ix2 jj q) = S (ix2 (⟨2048 * k + jj.val, h⟩ : Fin 10240) q) := by
  show S ((supRect i).idx (ix2 jj q)) = _
  have ho := k1_off1_eq i
  refine congrArg S (funext fun a => Fin.ext ?_)
  match a with
  | ⟨0, _⟩ => show k1_off1 i 0 + 1 * jj.val = 2048 * k + jj.val; rw [ho]; show 2048 * (i 1).val + 1 * jj.val = _; rw [hik]; omega
  | ⟨1, _⟩ => show k1_off1 i 1 + 1 * q.val = q.val; rw [ho]; show 0 + 1 * q.val = _; omega

/-- ONE CHUNK: at point `t` (row block `t / 5`, chunk `t % 5`), on a staging buffer `s` that holds the support, the
    body adds to what the result's staging buffer held the chunk's term of the specification. -/
theorem step_apply (c : Dev nD) (t : Fin cfg1.N) (s : Vec Ideal S10240x256 .bf16) (hs : ∀ y, s y = V c main_call0_v1 y)
    (prev : Vec Ideal S400x256 .f32) (p : Fin 400) (q : Fin 256)
    (hr : 400 * (t.val / 5) + p.val < 10000) (hk : t.val % 5 < 5) :
    k1_pay2 (grid1.coords t) (ablk V c t) (View.ld s (supRect (grid1.coords t))) prev (ix2 p q)
      = prev (ix2 p q) + Cert.Spec.chunk (V c main_arg1) (V c main_call0_v1) ⟨400 * (t.val / 5) + p.val, hr⟩ q ⟨t.val % 5, hk⟩ := by
  have e1 := (coords1 t).2
  rw [pay2_apply, e1]
  refine congrArg (prev (ix2 p q) + ·) ?_
  unfold Cert.Spec.chunk Cert.Spec.adjMasked
  refine Finset.sum_congr rfl fun jj _ => ?_
  have hjj := jj.isLt
  have hS : View.ld s (supRect (grid1.coords t)) (ix2 jj q)
      = V c main_call0_v1 (ix2 (⟨2048 * (t.val % 5) + jj.val, by omega⟩ : Fin 10240) q) :=
    (sup_ld (grid1.coords t) (t.val % 5) e1 s jj q (by omega)).trans (hs _)
  rw [hS]
  by_cases h : 2048 * (t.val % 5) + jj.val < 10000
  · rw [if_pos h, dif_pos h, ablk_apply V c t p jj h hr]
  · rw [if_neg h, dif_neg h]

section Acc

variable (A : Cert.Spec.SADJ.Idx → EReal) (Sp : Cert.Spec.SXP.Idx → EReal)

/-- Chunk `k`'s term of entry `(r, q)`, for any natural `k` (zero past the fifth chunk). -/
def chunkN (r : Fin 10000) (q : Fin 256) (k : ℕ) : EReal :=
  if h : k < 5 then Cert.Spec.chunk A Sp r q ⟨k, h⟩ else 0

/-- The staging buffer's entry after chunk `k`, in the body's order: `(((0 + c₀) + c₁) + …) + c_k`. -/
def accN (r : Fin 10000) (q : Fin 256) : ℕ → EReal
  | 0 => 0 + chunkN A Sp r q 0
  | k + 1 => accN r q k + chunkN A Sp r q (k + 1)

/-- After the fifth chunk it is the sum of the five chunks. -/
theorem accN_four (r : Fin 10000) (q : Fin 256) : accN A Sp r q 4 = ∑ k : Fin 5, Cert.Spec.chunk A Sp r q k := by
  have e : ∀ (k : ℕ) (h : k < 5), chunkN A Sp r q k = Cert.Spec.chunk A Sp r q ⟨k, h⟩ := fun k h => dif_pos h
  show ((((0 + chunkN A Sp r q 0) + chunkN A Sp r q 1) + chunkN A Sp r q 2) + chunkN A Sp r q 3) + chunkN A Sp r q 4 = _
  rw [e 0 (by omega), e 1 (by omega), e 2 (by omega), e 3 (by omega), e 4 (by omega), zero_add, Fin.sum_univ_five]
  rfl

end Acc

/-- ONE CHUNK, the row and the chunk named by numbers. -/
theorem step_applyN (c : Dev nD) (t : Fin cfg1.N) (s : Vec Ideal S10240x256 .bf16) (hs : ∀ y, s y = V c main_call0_v1 y)
    (prev : Vec Ideal S400x256 .f32) (p : Fin 400) (q : Fin 256)
    (r : Fin 10000) (hr : r.val = 400 * (t.val / 5) + p.val) :
    k1_pay2 (grid1.coords t) (ablk V c t) (View.ld s (supRect (grid1.coords t))) prev (ix2 p q)
      = prev (ix2 p q) + chunkN (V c main_arg1) (V c main_call0_v1) r q (t.val % 5) := by
  have hk : t.val % 5 < 5 := Nat.mod_lt _ (by decide)
  have hlt : 400 * (t.val / 5) + p.val < 10000 := hr ▸ r.isLt
  obtain rfl : r = ⟨400 * (t.val / 5) + p.val, hlt⟩ := Fin.ext hr
  rw [chunkN, dif_pos hk]
  exact step_apply V c t s hs prev p q hlt hk

/-- The position's bound is a proof: equal positions give the same contents. -/
private theorem outAt1_congr (c : Dev nD) {n m : ℕ} (e : n = m) (hn : n < cfg1.N) (hm : m < cfg1.N) :
    outAt1 V c n hn = outAt1 V c m hm := by subst e; rfl

/-- THE INDUCTION over the chunks of row block `ib`: after chunk `k ≤ 3` the staging buffer's entry `(p, q)` is the
    ordered sum of the chunks `0 … k` of row `400 ib + p`. -/
theorem outAt1_partial (c : Dev nD) (ib : ℕ) (p : Fin 400) (q : Fin 256) (r : Fin 10000) (hr : r.val = 400 * ib + p.val) :
    ∀ (k : ℕ), k < 4 → ∀ h : 5 * ib + k < cfg1.N,
      outAt1 V c (5 * ib + k) h (ix2 p q) = accN (V c main_arg1) (V c main_call0_v1) r q k
  | 0, _, h => by
    have e := congrFun (outAt1_A V c ⟨5 * ib + 0, h⟩ (by show (5 * ib + 0) % 5 = 0; omega)) (ix2 p q)
    refine e.trans ?_
    unfold accA
    rw [step_applyN V c ⟨5 * ib + 0, h⟩ (iblk1 V c 1 ⟨5 * ib + 0, h⟩) (iblk1_1_apply V c _) _ p q r (by show r.val = 400 * ((5 * ib + 0) / 5) + p.val; rw [hr]; omega), pay1_apply]
    show 0 + chunkN _ _ r q ((5 * ib + 0) % 5) = 0 + chunkN _ _ r q 0
    rw [show (5 * ib + 0) % 5 = 0 by omega]
  | k + 1, hk, h => by
    have e := congrFun (outAt1_B V c ⟨5 * ib + (k + 1), h⟩ (by show ¬(5 * ib + (k + 1)) % 5 = 0; omega)
      (by show ¬(5 * ib + (k + 1)) % 5 = 4; omega)) (ix2 p q)
    refine e.trans ?_
    unfold accB
    rw [step_applyN V c ⟨5 * ib + (k + 1), h⟩ (iblk1 V c 1 ⟨5 * ib + (k + 1), h⟩) (iblk1_1_apply V c _) _ p q r (by show r.val = 400 * ((5 * ib + (k + 1)) / 5) + p.val; rw [hr]; omega),
      outAt1_congr V c (show (⟨5 * ib + (k + 1), h⟩ : Fin cfg1.N).val - 1 = 5 * ib + k by show 5 * ib + (k + 1) - 1 = _; omega) _ (by omega),
      outAt1_partial c ib p q r hr k (by omega) (by omega)]
    show accN _ _ r q k + chunkN _ _ r q ((5 * ib + (k + 1)) % 5) = accN _ _ r q k + chunkN _ _ r q (k + 1)
    rw [show (5 * ib + (k + 1)) % 5 = k + 1 by omega]

/-- THE LAST CHUNK: the fifth chunk added, the bias added, the result clamped at zero — the specification's entry. -/
theorem outAt1_last (c : Dev nD) (ib : ℕ) (p : Fin 400) (q : Fin 256) (r : Fin 10000) (hr : r.val = 400 * ib + p.val)
    (h : 5 * ib + 4 < cfg1.N) :
    outAt1 V c (5 * ib + 4) h (ix2 p q)
      = Cert.Spec.outOf (V c main_arg1) (V c main_call0_v1) (V c main_call0_v2) (ix2 r q) := by
  have e := congrFun (outAt1_C V c ⟨5 * ib + 4, h⟩ (by show (5 * ib + 4) % 5 = 4; omega)) (ix2 p q)
  refine e.trans ?_
  unfold accC
  rw [pay3_apply, step_applyN V c ⟨5 * ib + 4, h⟩ (iblk1 V c 1 ⟨5 * ib + 4, h⟩) (iblk1_1_apply V c _) _ p q r (by show r.val = 400 * ((5 * ib + 4) / 5) + p.val; rw [hr]; omega),
    outAt1_congr V c (show (⟨5 * ib + 4, h⟩ : Fin cfg1.N).val - 1 = 5 * ib + 3 by show 5 * ib + 4 - 1 = _; omega) _ (by omega),
    outAt1_partial V c ib p q r hr 3 (by omega) (by omega), iblk1_2_apply]
  show max (accN _ _ r q 3 + chunkN _ _ r q ((5 * ib + 4) % 5) + V c main_call0_v2 (ix2 (0 : Fin 1) q)) 0 = _
  rw [show (5 * ib + 4) % 5 = 4 by omega]
  show max (accN _ _ r q 4 + _) 0 = max ((∑ k : Fin 5, Cert.Spec.chunk _ _ r q k) + _) 0
  rw [accN_four]

/-! ## (3) The blocks written back tile the result array -/

/-- An index of the result array is in point `t`'s block iff each coordinate is in the block's range on its axis. -/
theorem mem_blk3 (t : Fin cfg1.N) (i : S10000x256.Idx) :
    i ∈ ((cfg1.win 3).blk t).view.set ↔ ∀ a : Fin 2, win1_3.index t a * S400x256.size a ≤ (i a).val
      ∧ (i a).val < win1_3.index t a * S400x256.size a + S400x256.size a := by
  show i ∈ ((View.whole main_v0).slice (win1_3.rect t)).set ↔ _
  rw [View.set_slice_whole, Rect.mem_set_unit]
  exact Iff.rfl

/-- WHAT A POINT WRITES BACK (a row block's last chunk) is its block of the specification's array. -/
theorem flushed3_eq (c : Dev nD) (t : Fin cfg1.N) (hf : (cfg1.win 3).flush t = true) :
    (dat1 V c).flushed 3 t = ((cfg1.win 3).blk t).view.read (Elt Ideal)
      (Cert.Spec.outOf (V c main_arg1) (V c main_call0_v1) (V c main_call0_v2)) := by
  have h4 : t.val % 5 = 4 := (flush1_3 t).mp hf
  have hN := N1
  have ht := t.isLt
  obtain ⟨-, -, -, -, -, -, e0, e1⟩ := index1 t
  show (cfg1.win 3).cut (grid1.coords t) ((dat1 V c).after 3 t) = _
  rw [after1_3]
  funext y
  have hy0 : (y 0).val < 400 := (y 0).isLt
  have hy1 : (y 1).val < 256 := (y 1).isLt
  have hx : (cfg1.win 3).xinj (grid1.coords t) y = ix2 (⟨(y 0).val, hy0⟩ : Fin 400) (⟨(y 1).val, hy1⟩ : Fin 256) :=
    funext fun a => by
      match a with
      | ⟨0, _⟩ => rfl
      | ⟨1, _⟩ => rfl
  show outAt1 V c t.val t.isLt ((cfg1.win 3).xinj (grid1.coords t) y)
    = Cert.Spec.outOf (V c main_arg1) (V c main_call0_v1) (V c main_call0_v2) (((cfg1.win 3).blk t).view.emb y)
  rw [hx, outAt1_congr V c (show t.val = 5 * (t.val / 5) + 4 by omega) t.isLt (by omega),
    outAt1_last V c (t.val / 5) ⟨(y 0).val, hy0⟩ ⟨(y 1).val, hy1⟩ ⟨400 * (t.val / 5) + (y 0).val, by omega⟩ rfl (by omega)]
  refine congrArg (Cert.Spec.outOf (V c main_arg1) (V c main_call0_v1) (V c main_call0_v2)) (funext fun a => Fin.ext ?_)
  match a with
  | ⟨0, _⟩ => show 400 * (t.val / 5) + (y 0).val = win1_3.index t (0 : Fin 2) * 400 + 1 * (y 0).val; rw [e0]; omega
  | ⟨1, _⟩ => show (y 1).val = win1_3.index t (1 : Fin 2) * 256 + 1 * (y 1).val; rw [e1]; omega

/-- Row `r` of the result array lies in the block the last chunk of row block `r / 400` writes back. -/
theorem cover3 (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN := N1
  have hlt : 5 * ((i 0).val / 400) + 4 < cfg1.N := by omega
  obtain ⟨-, -, -, -, -, -, e0, e1⟩ := index1 ⟨5 * ((i 0).val / 400) + 4, hlt⟩
  refine ⟨⟨5 * ((i 0).val / 400) + 4, hlt⟩, (flush1_3 _).mpr (by show (5 * ((i 0).val / 400) + 4) % 5 = 4; omega), ?_⟩
  rw [mem_blk3]
  intro a
  match a with
  | ⟨0, _⟩ =>
    show win1_3.index ⟨5 * ((i 0).val / 400) + 4, hlt⟩ (0 : Fin 2) * 400 ≤ (i 0).val
      ∧ (i 0).val < win1_3.index ⟨5 * ((i 0).val / 400) + 4, hlt⟩ (0 : Fin 2) * 400 + 400
    rw [e0]
    show (5 * ((i 0).val / 400) + 4) / 5 * 400 ≤ (i 0).val ∧ (i 0).val < (5 * ((i 0).val / 400) + 4) / 5 * 400 + 400
    omega
  | ⟨1, _⟩ =>
    show win1_3.index ⟨5 * ((i 0).val / 400) + 4, hlt⟩ (1 : Fin 2) * 256 ≤ (i 1).val
      ∧ (i 1).val < win1_3.index ⟨5 * ((i 0).val / 400) + 4, hlt⟩ (1 : Fin 2) * 256 + 256
    rw [e1]
    omega

/-- The result array after region 1 is `outOf` of the adjacency, the support and the bias row the region found. -/
theorem out_final (c : Dev nD) :
    ((dat1 (F := Ideal) V c).arrAt 3 cfg1.N : Cert.Spec.SX.Idx → EReal)
      = Cert.Spec.outOf (V c main_arg1) (V c main_call0_v1) (V c main_call0_v2) :=
  (dat1 V c).arrAt_eq_of_cover 3 (Cert.Spec.outOf (V c main_arg1) (V c main_call0_v1) (V c main_call0_v2))
    (flushed3_eq V c) cover3

end Cert.KernelIdeal.Hand

end
-- ==== Proof.KernelIdeal.Final.lean ====
/-
  The idealized kernel's result as a function of the launch arrays: `G`.  Region 1 leaves `outOf` of what it found
  (the adjacency as launched, the support region 0 left, the bias as a row); region 0 left `supOf` of the padded `x`
  and `W`; the padded `x` is `x` with 240 rows of the converted integer zero, which is the real zero; the bias row is
  the bias read along its one axis.  `kernel_eq_G` joins them.
-/
import proofs.«163589_g31456340476406_cont_sun_m_339_6_alg».proof.Proof.KernelIdeal.Run
import proofs.«163589_g31456340476406_cont_sun_m_339_6_alg».proof.Proof.KernelIdeal.Value0
import proofs.«163589_g31456340476406_cont_sun_m_339_6_alg».proof.Proof.KernelIdeal.Value1
import proofs.«163589_g31456340476406_cont_sun_m_339_6_alg».proof.Proof.Spec
import Idealize.ShloMosaic.Lib.KernelVsHost
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

/-- The host's padding of `x` is `x` with 240 zero rows: the padding value is the integer zero converted. -/
theorem xpad_eq (x : FVec Ideal S10000x256 .f32) :
    (pad S10240x256 ![0, 0] ![240, 0] ![0, 0] x (sitofp (F := Ideal) .f32 (constantI S_ 32 0#32))
        pads_S10000x256_S10240x256_02400_000 h_S_ : Cert.Spec.SXP.Idx → EReal) = Cert.Spec.xpadOf x := by
  funext j
  obtain ⟨p, q, rfl⟩ : ∃ (p : Fin 10240) (q : Fin 256), j = ix2 p q := ⟨j 0, j 1, eq_ix2 j⟩
  unfold Cert.Spec.xpadOf
  by_cases h : p.val < 10000
  · rw [dif_pos h]
    refine pad_apply_of_inside _ _ _ _ _ _ _ _ (ix2 (⟨p.val, h⟩ : Fin 10000) q) fun a => ?_
    match a with
    | ⟨0, _⟩ => show p.val = 0 + p.val * (0 + 1); omega
    | ⟨1, _⟩ => show q.val = 0 + q.val * (0 + 1); omega
  · rw [dif_neg h]
    refine (pad_apply_of_not_inside _ _ _ _ _ _ _ _ (0 : Fin 2) fun hin => h ?_).trans ?_
    · exact (show (p.val - 0) / (0 + 1) < 10000 from hin.2.2) |> fun h' => by simpa using h'
    · show Scalar.sitofp (F := Ideal) .f32 (0#32 : BitVec 32) = 0
      exact sitofp_zero

/-- The bias as a one-row matrix is the bias read along its one axis. -/
theorem bias_row_eq (b : FVec Ideal S256 .f32) :
    (shapeCast S1x256 b shapeCasts_S256_S1x256 : Cert.Spec.SB2.Idx → EReal) = fun i => b (ix1 (i 1 : Fin 256)) := by
  funext i
  refine shapeCast_apply b _ i (ix1 (i 1 : Fin 256)) ?_
  rw [Shape.rowMajor_val_one, Shape.rowMajor_val_two]
  have h0 : (i 0).val = 0 := by have h1 : (i 0).val < 1 := (i 0).isLt; omega
  show (i 1).val = (i 0).val * 256 + (i 1).val
  omega

variable (m : (ℓ : Loc nD τ sig) → Buf (Elt Ideal) ℓ)

/-- What the run leaves in the result array is `G` of the four arguments as launched. -/
theorem kernel_value (c : Dev nD) :
    ((dat1 (F := Ideal) (V3 m) c).arrAt 3 cfg1.N : Cert.Spec.SX.Idx → EReal)
      = Cert.Spec.G (m ((c : Thread nD τ).loc main_arg0)) (m ((c : Thread nD τ).loc main_arg1))
          (m ((c : Thread nD τ).loc main_arg2)) (m ((c : Thread nD τ).loc main_arg3)) := by
  refine (out_final (V3 m) c).trans ?_
  rw [V3_main_arg1 m c, V3_main_call0_v1 m c, V3_main_call0_v2 m c, bias_row_eq]
  refine Eq.trans ?_ (Cert.Spec.kernel_eq_G _ _ _ _)
  refine congrArg (fun s => Cert.Spec.outOf _ s _) ?_
  refine (sup_final (V1 m) c).trans ?_
  rw [V1_main_call0_v0 m c, V1_main_arg2 m c, xpad_eq]

end Cert.KernelIdeal.Hand

end
-- ==== Proof.Reference.lean ====
/-
  The reference, read one operation at a time over the extended reals, is `G`: the two host products are plain sums
  over the contracted axis, the bias is broadcast along the rows, and `relu` is the maximum with zero.
-/
import proofs.«163589_g31456340476406_cont_sun_m_339_6_alg».proof.Proof.Gen.ReferenceIdeal.Read
import proofs.«163589_g31456340476406_cont_sun_m_339_6_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Read

/-! ## The composed indices, by coordinates

Each operation of the reference reads its operands at an index computed from the result's index. On an index given
by its coordinates these are again indices given by coordinates. -/

/-- The outer product reads the adjacency at row `r`, column `k` … -/
theorem lidx1_ix2 (r : Fin 10000) (q : Fin 256) (k : Fin 10000) : lidx_main_v1 (ix2 r q) k = ix2 r k :=
  funext fun a => Fin.ext (by match a with | ⟨0, _⟩ => rfl | ⟨1, _⟩ => rfl)
/-- … and the inner product at row `k`, column `q`. -/
theorem ridx1_ix2 (r : Fin 10000) (q : Fin 256) (k : Fin 10000) : ridx_main_v1 (ix2 r q) k = ix2 k q :=
  funext fun a => Fin.ext (by match a with | ⟨0, _⟩ => rfl | ⟨1, _⟩ => rfl)
/-- The inner product reads `x` at row `j`, column `c` … -/
theorem lidx0_ix2 (j : Fin 10000) (q : Fin 256) (c : Fin 256) : lidx_main_v0 (ix2 j q) c = ix2 j c :=
  funext fun a => Fin.ext (by match a with | ⟨0, _⟩ => rfl | ⟨1, _⟩ => rfl)
/-- … and `W` at row `c`, column `q`. -/
theorem ridx0_ix2 (j : Fin 10000) (q : Fin 256) (c : Fin 256) : ridx_main_v0 (ix2 j q) c = ix2 c q :=
  funext fun a => Fin.ext (by match a with | ⟨0, _⟩ => rfl | ⟨1, _⟩ => rfl)
/-- The bias row broadcast along the rows is read at row `0`, column `q` … -/
theorem idx3_ix2 (r : Fin 10000) (q : Fin 256) : idx_main_v3 (ix2 r q) = ix2 (0 : Fin 1) q :=
  funext fun a => Fin.ext (by match a with | ⟨0, _⟩ => rfl | ⟨1, _⟩ => rfl)
/-- … and the bias itself at `q`. -/
theorem idx2_ix2 (z : Fin 1) (q : Fin 256) : idx_main_v2 (ix2 z q) = ix1 q :=
  funext fun a => Fin.ext (by match a with | ⟨0, _⟩ => rfl)

/-- The reference's last stage is `G` of the four arguments. -/
theorem ref_eq (x0 : FVec Ideal S10000x256 .f32) (x1 : FVec Ideal S10000x10000 .f32) (x2 : FVec Ideal S256x256 .f32)
    (x3 : FVec Ideal S256 .f32) :
    (val_main_v5 (F := Ideal) x0 x1 x2 x3 : Cert.Spec.SX.Idx → EReal) = Cert.Spec.G x0 x1 x2 x3 := by
  funext i
  obtain ⟨r, q, rfl⟩ : ∃ (r : Fin 10000) (q : Fin 256), i = ix2 r q := ⟨i 0, i 1, eq_ix2 i⟩
  rw [val_main_v5_apply, val_main_v4_apply, val_main_v1_apply, val_main_v3_apply, val_main_v2_apply,
    val_main_call0_v0_apply, val_main_call0_cst_apply]
  simp only [lidx1_ix2, ridx1_ix2, val_main_v0_apply, lidx0_ix2, ridx0_ix2, idx3_ix2, idx2_ix2,
    Ideal.maximumf_def, Ideal.addf_def, Ideal.ofBits_def, Ideal.ofBits_zero_f32]
  rfl

end Cert.ReferenceIdeal.RefValue

end
-- ==== Proof.lean ====
/-
  The certificate of the graph convolution `relu(adj · (x · W) + b)`: the two-step kernel against its reference.

  The kernel computes the support `x · W` in five row blocks of the padded `x`, then each block of 400 result rows as
  five chunks of 2048 adjacency columns times the matching support rows, accumulated in place, the columns past the
  10000th masked to zero, the bias added and the result clamped at zero after the fifth chunk.  Over the extended reals
  this is the reference's value `G`: the extra 240 terms are `0 · s = 0` and a sum may be taken in chunks
  (`Cert.Spec.kernel_eq_G`); no finiteness of the inputs is used.

  The frames of the two kernel programs are their runs (`run_main`, at the word-level and at the ideal instance) read at
  the four arguments; the reference's frame is its run with the result dropped.  The ideal pass rewrote nothing, so
  `preserves` is trivial.
-/
import proofs.«163589_g31456340476406_cont_sun_m_339_6_alg».proof.Defs
import proofs.«163589_g31456340476406_cont_sun_m_339_6_alg».proof.Proof.Gen.Kernel
import proofs.«163589_g31456340476406_cont_sun_m_339_6_alg».proof.Proof.Gen.KernelIdeal
import proofs.«163589_g31456340476406_cont_sun_m_339_6_alg».proof.Proof.Gen.ReferenceIdeal
import proofs.«163589_g31456340476406_cont_sun_m_339_6_alg».proof.Proof.Gen.Pre_finite_inputs
import proofs.«163589_g31456340476406_cont_sun_m_339_6_alg».proof.Proof.Gen.ReferenceIdeal.Run
import proofs.«163589_g31456340476406_cont_sun_m_339_6_alg».proof.Proof.Gen.ReferenceIdeal.Read
import proofs.«163589_g31456340476406_cont_sun_m_339_6_alg».proof.Proof.Kernel.Run
import proofs.«163589_g31456340476406_cont_sun_m_339_6_alg».proof.Proof.KernelIdeal.Final
import proofs.«163589_g31456340476406_cont_sun_m_339_6_alg».proof.Proof.Reference

noncomputable section

namespace Cert.Proof

open Idealize.ShloMosaic Idealize.SL.Sem

/-- The word-level kernel runs to the end and leaves its arguments as launched. -/
theorem frame_k [Cert.Kernel.Facts] [Cert.Pre_finite_inputs.Facts] : Cert.frame_Kernel := fun m ρ _ =>
  (θ_run Cert.Kernel.defs _ _).mono (fun _ h c => (h c).2) (Cert.Kernel.Hand.run_main (F := Bits) m ρ)

/-- So does the idealized kernel. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run_main (F := Ideal) m ρ)

/-- The reference's frame is its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with `G` of the arguments in their result array. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v5_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
